-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3300000 : Shape := ⟨2, ![2, 3300000]⟩
abbrev S3300000 : Shape := ⟨1, ![3300000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3300000 : S_.BroadcastsInDim S3300000 (![] : Fin 0 → Fin S3300000.rank)
  reducesTo_S3300000_S_d0 : S3300000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S16x40 .f32) (main_arg6 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg5
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x512 .f32) (main_arg1 : IVec S2x3300000 32) (main_arg2 : FVec F S3300000 .f32) (main_arg3 : FVec F S512x16 .f32) (main_arg4 : FVec F S16 .f32) (main_arg5 : FVec F S16x40 .f32) (main_arg6 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3300000 .f32 := Host.absf main_arg2
  let main_cst_0 : FVec F S_ .f32 := constant S_ .f32 0x7F800000#32
  let main_v5 : FVec F S3300000 .f32 := broadcastInDim S3300000 ![] bcast_S_S3300000 main_cst_0
  let main_v6 : IVec S3300000 1 := cmpf .olt main_v4 main_v5
  let main_c_1 : IVec S_ 1 := constantI S_ 1 1#1
  let main_v7 : IVec S_ 1 := (fun x v => Host.reduce IntOp.andi x v reducesTo_S3300000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x512 : Shape := ⟨2, ![100000, 512]⟩
abbrev S2x3300000 : Shape := ⟨2, ![2, 3300000]⟩
abbrev S3300000 : Shape := ⟨1, ![3300000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3300000 : Shape := ⟨2, ![1, 3300000]⟩
abbrev S_ : Shape := ⟨0, ![]⟩
abbrev S100000 : Shape := ⟨1, ![100000]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S20000x16 : Shape := ⟨2, ![20000, 16]⟩
abbrev S1x16 : Shape := ⟨2, ![1, 16]⟩
abbrev S100000x40 : Shape := ⟨2, ![100000, 40]⟩
abbrev S20000x40 : Shape := ⟨2, ![20000, 40]⟩
abbrev S3300000x40 : Shape := ⟨2, ![3300000, 40]⟩
abbrev S1x40 : Shape := ⟨2, ![1, 40]⟩
abbrev S20000 : Shape := ⟨1, ![20000]⟩
abbrev S20000x1 : Shape := ⟨2, ![20000, 1]⟩

abbrev nBuf : Space → Nat
  | .hbm => 79
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3300000, .i32⟩
  | .hbm, ⟨2, _⟩ => ⟨S3300000, .f32⟩
  | .hbm, ⟨3, _⟩ => ⟨S512x16, .f32⟩
  | .hbm, ⟨4, _⟩ => ⟨S16, .f32⟩
  | .hbm, ⟨5, _⟩ => ⟨S16x40, .f32⟩
  | .hbm, ⟨6, _⟩ => ⟨S40, .f32⟩
  | .hbm, ⟨7, _⟩ => ⟨S1x3300000, .i32⟩
  | .hbm, ⟨8, _⟩ => ⟨S3300000, .i32⟩
  | .hbm, ⟨9, _⟩ => ⟨S1x3300000, .i32⟩
  | .hbm, ⟨10, _⟩ => ⟨S3300000, .i32⟩
  | .hbm, ⟨11, _⟩ => ⟨S_, .f32⟩
  | .hbm, ⟨12, _⟩ => ⟨S100000, .f32⟩
  | .hbm, ⟨13, _⟩ => ⟨S3300000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3300000, .i32⟩
  | .hbm, ⟨25, _⟩ => ⟨S3300000, .i1⟩
  | .hbm, ⟨26, _⟩ => ⟨S_, .i32⟩
  | .hbm, ⟨27, _⟩ => ⟨S3300000, .i32⟩
  | .hbm, ⟨28, _⟩ => ⟨S3300000, .i32⟩
  | .hbm, ⟨29, _⟩ => ⟨S3300000, .i32⟩
  | .hbm, ⟨30, _⟩ => ⟨S3300000x1, .i32⟩
  | .hbm, ⟨31, _⟩ => ⟨S3300000, .f32⟩
  | .hbm, ⟨32, _⟩ => ⟨S3300000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S3300000, .f32⟩
  | .hbm, ⟨43, _⟩ => ⟨S100000x16, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x16, .f32⟩
  | .hbm, ⟨53, _⟩ => ⟨S3300000x1, .f32⟩
  | .hbm, ⟨54, _⟩ => ⟨S3300000x16, .f32⟩
  | .hbm, ⟨55, _⟩ => ⟨S3300000x16, .f32⟩
  | .hbm, ⟨56, _⟩ => ⟨S_, .f32⟩
  | .hbm, ⟨57, _⟩ => ⟨S100000x16, .f32⟩
  | .hbm, ⟨58, _⟩ => ⟨S3300000x1, .i32⟩
  | .hbm, ⟨59, _⟩ => ⟨S100000x16, .f32⟩
  | .hbm, ⟨60, _⟩ => ⟨S100000x16, .f32⟩
  | .hbm, ⟨61, _⟩ => ⟨S100000x40, .f32⟩
  | .hbm, ⟨62, _⟩ => ⟨S_, .i32⟩
  | .hbm, ⟨63, _⟩ => ⟨S3300000, .i32⟩
  | .hbm, ⟨64, _⟩ => ⟨S3300000, .i1⟩
  | .hbm, ⟨65, _⟩ => ⟨S_, .i32⟩
  | .hbm, ⟨66, _⟩ => ⟨S3300000, .i32⟩
  | .hbm, ⟨67, _⟩ => ⟨S3300000, .i32⟩
  | .hbm, ⟨68, _⟩ => ⟨S3300000, .i32⟩
  | .hbm, ⟨69, _⟩ => ⟨S3300000x1, .i32⟩
  | .hbm, ⟨70, _⟩ => ⟨S3300000x40, .f32⟩
  | .hbm, ⟨71, _⟩ => ⟨S3300000x1, .f32⟩
  | .hbm, ⟨72, _⟩ => ⟨S3300000x40, .f32⟩
  | .hbm, ⟨73, _⟩ => ⟨S3300000x40, .f32⟩
  | .hbm, ⟨74, _⟩ => ⟨S_, .f32⟩
  | .hbm, ⟨75, _⟩ => ⟨S100000x40, .f32⟩
  | .hbm, ⟨76, _⟩ => ⟨S3300000x1, .i32⟩
  | .hbm, ⟨77, _⟩ => ⟨S100000x40, .f32⟩
  | .hbm, ⟨78, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S20000x16, .f32⟩
  | .local _ .vmem, ⟨6, _⟩ => ⟨S20000x16, .f32⟩
  | .local _ .vmem, ⟨7, _⟩ => ⟨S16, .f32⟩
  | .local _ .vmem, ⟨8, _⟩ => ⟨S20000x16, .f32⟩
  | .local _ .vmem, ⟨9, _⟩ => ⟨S20000x16, .f32⟩
  | .local _ .vmem, ⟨10, _⟩ => ⟨S20000x16, .f32⟩
  | .local _ .vmem, ⟨11, _⟩ => ⟨S20000x16, .f32⟩
  | .local _ .vmem, ⟨12, _⟩ => ⟨S16x40, .f32⟩
  | .local _ .vmem, ⟨13, _⟩ => ⟨S20000x40, .f32⟩
  | .local _ .vmem, ⟨14, _⟩ => ⟨S20000x40, .f32⟩
  | .local _ .vmem, ⟨15, _⟩ => ⟨S20000x40, .f32⟩
  | .local _ .vmem, ⟨16, _⟩ => ⟨S20000x40, .f32⟩
  | .local _ .vmem, ⟨17, _⟩ => ⟨S40, .f32⟩
  | .local _ .vmem, ⟨18, _⟩ => ⟨S20000x40, .f32⟩
  | .local _ .vmem, ⟨19, _⟩ => ⟨S20000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_8 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S20000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  inb_S20000x16_S20000x16_0_0 : ∀ a, (![0, 0] : Fin 2 → Nat) a + S20000x16.size a ≤ S20000x16.size a
  h_S20000x16 : 0 < S20000x16.numel
  shapeCasts_S20000x16_S20000x16 : S20000x16.ShapeCasts S20000x16
  inb_S16_S16_0 : ∀ a, (![0] : Fin 1 → Nat) a + S16.size a ≤ S16.size a
  h_S16 : 0 < S16.numel
  shapeCasts_S16_S1x16 : S16.ShapeCasts S1x16
  broadcasts_S1x16_S20000x16 : S1x16.Broadcasts S20000x16
  inb_S16x40_S16x40_0_0 : ∀ a, (![0, 0] : Fin 2 → Nat) a + S16x40.size a ≤ S16x40.size a
  h_S16x40 : 0 < S16x40.numel
  inb_S20000x40_S20000x40_0_0 : ∀ a, (![0, 0] : Fin 2 → Nat) a + S20000x40.size a ≤ S20000x40.size a
  h_S20000x40 : 0 < S20000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S20000x40_S20000x40 : S20000x40.ShapeCasts S20000x40
  inb_S40_S40_0 : ∀ a, (![0] : Fin 1 → Nat) a + S40.size a ≤ S40.size a
  h_S40 : 0 < S40.numel
  shapeCasts_S40_S1x40 : S40.ShapeCasts S1x40
  broadcasts_S1x40_S20000x40 : S1x40.Broadcasts S20000x40
  reduces_S20000x40_S20000 : S20000x40.Reduces [1] S20000
  shapeCasts_S20000_S20000x1 : S20000.ShapeCasts S20000x1
  broadcasts_S20000x1_S20000x40 : S20000x1.Broadcasts S20000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S20000x16_S16x40_S20000x40_1_0_0_1_n_n_wf : DotDims.WF S20000x16 S16x40 S20000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x16.size a ≤ S100000x16.size a
  hwx1_0 : ∀ i : grid1.Coords, EltTy.bits .f32 = 32 ∨ (Rect.block (s := S100000x16) S20000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16.size a ≤ S16.size a
  hwx1_1 : ∀ i : grid1.Coords, EltTy.bits .f32 = 32 ∨ (Rect.block (s := S16) S16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x16.size a ≤ S100000x16.size a
  hwx1_2 : ∀ i : grid1.Coords, EltTy.bits .f32 = 32 ∨ (Rect.block (s := S100000x16) S20000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x16.size a ≤ S100000x16.size a
  hwx2_0 : ∀ i : grid2.Coords, EltTy.bits .f32 = 32 ∨ (Rect.block (s := S100000x16) S20000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x40.size a ≤ S100000x40.size a
  hwx2_2 : ∀ i : grid2.Coords, EltTy.bits .f32 = 32 ∨ (Rect.block (s := S100000x40) S20000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x40.size a ≤ S100000x40.size a
  hwx3_0 : ∀ i : grid3.Coords, EltTy.bits .f32 = 32 ∨ (Rect.block (s := S100000x40) S20000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S40.size a ≤ S40.size a
  hwx3_1 : ∀ i : grid3.Coords, EltTy.bits .f32 = 32 ∨ (Rect.block (s := S40) S40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x40.size a ≤ S100000x40.size a
  hwx3_2 : ∀ i : grid3.Coords, EltTy.bits .f32 = 32 ∨ (Rect.block (s := S100000x40) S20000x40.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S20000x16_S16x40_S20000x40_1_0_0_1_n_n : DotDims S20000x16 S16x40 S20000x40 where
  lhsContracting := [1]
  rhsContracting := [0]
  lhsNonContracting := [0]
  rhsNonContracting := [1]
  lhsBatch := []
  rhsBatch := []
  wf := dot_S20000x16_S16x40_S20000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S20000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S20000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S20000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S20000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S20000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S20000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3300000 : Shape := ⟨2, ![2, 3300000]⟩
abbrev S3300000 : Shape := ⟨1, ![3300000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3300000 : Shape := ⟨2, ![1, 3300000]⟩
abbrev S_ : Shape := ⟨0, ![]⟩
abbrev S100000 : Shape := ⟨1, ![100000]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 133
  | .vmem => 0
  | .smem => 0
  | _ => 0

abbrev hbmTy0_0 (i : Nat) : BufTy := match i % 128 with
  | 0 => ⟨S100000x512, .f32⟩
  | 1 => ⟨S2x3300000, .i32⟩
  | 2 => ⟨S3300000, .f32⟩
  | 3 => ⟨S512x16, .f32⟩
  | 4 => ⟨S16, .f32⟩
  | 5 => ⟨S16x40, .f32⟩
  | 6 => ⟨S40, .f32⟩
  | 7 => ⟨S1x3300000, .i32⟩
  | 8 => ⟨S3300000, .i32⟩
  | 9 => ⟨S1x3300000, .i32⟩
  | 10 => ⟨S3300000, .i32⟩
  | 11 => ⟨S_, .f32⟩
  | 12 => ⟨S100000, .f32⟩
  | 13 => ⟨S3300000x1, .i32⟩
  | 14 => ⟨S100000, .f32⟩
  | 15 => ⟨S_, .f32⟩
  | 16 => ⟨S100000, .f32⟩
  | 17 => ⟨S100000, .i1⟩
  | 18 => ⟨S100000, .f32⟩
  | 19 => ⟨S_, .f32⟩
  | 20 => ⟨S_, .f32⟩
  | 21 => ⟨S100000, .f32⟩
  | 22 => ⟨S100000, .f32⟩
  | 23 => ⟨S_, .i32⟩
  | 24 => ⟨S3300000, .i32⟩
  | 25 => ⟨S3300000, .i1⟩
  | 26 => ⟨S_, .i32⟩
  | 27 => ⟨S3300000, .i32⟩
  | 28 => ⟨S3300000, .i32⟩
  | 29 => ⟨S3300000, .i32⟩
  | 30 => ⟨S3300000x1, .i32⟩
  | 31 => ⟨S3300000, .f32⟩
  | 32 => ⟨S3300000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S3300000, .f32⟩
  | 43 => ⟨S100000x16, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000x16, .f32⟩
  | 53 => ⟨S3300000x1, .f32⟩
  | 54 => ⟨S3300000x16, .f32⟩
  | 55 => ⟨S3300000x16, .f32⟩
  | 56 => ⟨S_, .f32⟩
  | 57 => ⟨S100000x16, .f32⟩
  | 58 => ⟨S3300000x1, .i32⟩
  | 59 => ⟨S100000x16, .f32⟩
  | 60 => ⟨S1x16, .f32⟩
  | 61 => ⟨S100000x16, .f32⟩
  | 62 => ⟨S100000x16, .f32⟩
  | 63 => ⟨S_, .f32⟩
  | 64 => ⟨S100000x16, .f32⟩
  | 65 => ⟨S100000x16, .f32⟩
  | 66 => ⟨S_, .f32⟩
  | 67 => ⟨S100000, .f32⟩
  | 68 => ⟨S3300000x1, .i32⟩
  | 69 => ⟨S100000, .f32⟩
  | 70 => ⟨S_, .f32⟩
  | 71 => ⟨S100000, .f32⟩
  | 72 => ⟨S100000, .i1⟩
  | 73 => ⟨S100000, .f32⟩
  | 74 => ⟨S_, .f32⟩
  | 75 => ⟨S_, .f32⟩
  | 76 => ⟨S100000, .f32⟩
  | 77 => ⟨S100000, .f32⟩
  | 78 => ⟨S_, .i32⟩
  | 79 => ⟨S3300000, .i32⟩
  | 80 => ⟨S3300000, .i1⟩
  | 81 => ⟨S_, .i32⟩
  | 82 => ⟨S3300000, .i32⟩
  | 83 => ⟨S3300000, .i32⟩
  | 84 => ⟨S3300000, .i32⟩
  | 85 => ⟨S3300000x1, .i32⟩
  | 86 => ⟨S3300000, .f32⟩
  | 87 => ⟨S3300000, .f32⟩
  | 88 => ⟨S_, .i32⟩
  | 89 => ⟨S3300000, .i32⟩
  | 90 => ⟨S3300000, .i1⟩
  | 91 => ⟨S_, .i32⟩
  | 92 => ⟨S3300000, .i32⟩
  | 93 => ⟨S3300000, .i32⟩
  | 94 => ⟨S3300000, .i32⟩
  | 95 => ⟨S3300000x1, .i32⟩
  | 96 => ⟨S3300000, .f32⟩
  | 97 => ⟨S3300000, .f32⟩
  | 98 => ⟨S100000x40, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000x40, .f32⟩
  | 108 => ⟨S3300000x1, .f32⟩
  | 109 => ⟨S3300000x40, .f32⟩
  | 110 => ⟨S3300000x40, .f32⟩
  | 111 => ⟨S_, .f32⟩
  | 112 => ⟨S100000x40, .f32⟩
  | 113 => ⟨S3300000x1, .i32⟩
  | 114 => ⟨S100000x40, .f32⟩
  | 115 => ⟨S1x40, .f32⟩
  | 116 => ⟨S100000x40, .f32⟩
  | 117 => ⟨S100000x40, .f32⟩
  | 118 => ⟨S_, .f32⟩
  | 119 => ⟨S100000, .f32⟩
  | 120 => ⟨S_, .f32⟩
  | 121 => ⟨S100000, .f32⟩
  | 122 => ⟨S100000, .f32⟩
  | 123 => ⟨S100000x1, .f32⟩
  | 124 => ⟨S100000x40, .f32⟩
  | 125 => ⟨S100000x40, .f32⟩
  | 126 => ⟨S100000x40, .f32⟩
  | 127 => ⟨S_, .f32⟩
  | _ => ⟨S100000x512, .f32⟩

abbrev hbmTy0_1 (i : Nat) : BufTy := match i % 128 with
  | 0 => ⟨S100000, .f32⟩
  | 1 => ⟨S100000x1, .f32⟩
  | 2 => ⟨S100000x1, .f32⟩
  | 3 => ⟨S100000x40, .f32⟩
  | 4 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_cst : Ref sig .tc := ⟨.hbm, 63, rfl⟩
abbrev main_call1_v0 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_call2_v0 : Ref sig .tc := ⟨.hbm, 75, rfl⟩
abbrev main_call2_v1 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_c_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_17 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_call3_cst : Ref sig .tc := ⟨.hbm, 118, rfl⟩
abbrev main_call3_v0 : Ref sig .tc := ⟨.hbm, 119, rfl⟩
abbrev main_call3_cst_0 : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_v5 : Ref sig .tc := ⟨.hbm, 125, rfl⟩
abbrev main_call3_v6 : Ref sig .tc := ⟨.hbm, 126, rfl⟩
abbrev main_call3_cst_1 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_v85 : Ref sig .tc := ⟨.hbm, 132, rfl⟩

abbrev nD : Nat := 1
abbrev τ : Topo := Topo.v7x

variable {F : FTy → Type} [FloatOps F]

class Facts₀ : Prop where
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.Layers.lean ====
/-
  The four dense stages of the two-layer graph convolution, each as ONE whole-array function of the arrays it reads.
  Between them both programs run the same edge-list aggregation (a gather of rows by the source node, a scale by the
  symmetric normalisation, a scatter-add by the target node), so the programs agree as soon as each of the kernel's four
  tiled calls computes, over the whole array, what the reference's one operation chain computes:
    * `dense1 x w`   — the product of the node features [100000, 512] with the first weight [512, 16];
    * `biasRelu a b` — the aggregate [100000, 16] plus the bias row, clamped below at zero;
    * `dense2 h w`   — the product of the hidden features [100000, 16] with the second weight [16, 40];
    * `biasLogSoftmax a b` — the aggregate [100000, 40] plus the bias row, then along each row
      z - max z - log (sum (exp (z - max z))).
  They are spelt with the reference's own operations, so that the reference's result is these functions composed
  by unfolding alone.
-/
import proofs.«158233_j18399639896776_1_alg».proof.Proof.Gen.ReferenceIdeal

noncomputable section

namespace Cert.Layers

open Idealize.ShloMosaic Cert.ReferenceIdeal Cert.ReferenceIdeal.Gen

variable {F : FTy → Type} [FloatOps F]

/-- Node features times the first layer's weight. -/
def dense1 (x : FVec F S100000x512 .f32) (w : FVec F S512x16 .f32) : FVec F S100000x16 .f32 :=
  Host.dotGeneral dot_S100000x512_S512x16_S100000x16_1_0_0_1_n_n none x w

/-- The first layer's aggregate plus its bias (one row, repeated down the nodes), then max with zero. -/
def biasRelu (a : FVec F S100000x16 .f32) (b : FVec F S16 .f32) : FVec F S100000x16 .f32 :=
  maximumf (addf a (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- Hidden features times the second layer's weight. -/
def dense2 (h : FVec F S100000x16 .f32) (w : FVec F S16x40 .f32) : FVec F S100000x40 .f32 :=
  Host.dotGeneral dot_S100000x16_S16x40_S100000x40_1_0_0_1_n_n none h w

/-- The logits: the second layer's aggregate plus its bias row. -/
def logits (a : FVec F S100000x40 .f32) (b : FVec F S40 .f32) : FVec F S100000x40 .f32 :=
  addf a (broadcastInDim S100000x40 ![0, 1] bcast_S1x40_S100000x40_0_1 (broadcastInDim S1x40 ![1] bcast_S40_S1x40_1 b))

/-- A row's maximum (taken from minus infinity, and once more against minus infinity, as the reference writes it). -/
def rowMax (z : FVec F S100000x40 .f32) : FVec F S100000 .f32 :=
  maximumf (broadcastInDim S100000 ![] bcast_S_S100000 (constant S_ .f32 0xFF800000#32))
    (Host.reduce FloatOps.maximumf z (constant S_ .f32 0xFF800000#32) reducesTo_S100000x40_S100000_d1 h_S_)

/-- The logits shifted by their row's maximum. -/
def shifted (z : FVec F S100000x40 .f32) : FVec F S100000x40 .f32 :=
  subf z (broadcastInDim S100000x40 ![0, 1] bcast_S100000x1_S100000x40_0_1 (broadcastInDim S100000x1 ![0] bcast_S100000_S100000x1_0 (rowMax z)))

/-- Log-softmax along each row of the logits: the shifted logits minus the log of the row's sum of their exponentials. -/
def logSoftmax (z : FVec F S100000x40 .f32) : FVec F S100000x40 .f32 :=
  subf (shifted z) (broadcastInDim S100000x40 ![0, 1] bcast_S100000x1_S100000x40_0_1
    (Host.log (broadcastInDim S100000x1 ![0] bcast_S100000_S100000x1_0
      (Host.reduceAdd (Host.exp (shifted z)) (constant S_ .f32 0x00000000#32) reducesTo_S100000x40_S100000_d1 h_S_))))

/-- The second layer's aggregate plus bias, log-softmaxed along each row. -/
def biasLogSoftmax (a : FVec F S100000x40 .f32) (b : FVec F S40 .f32) : FVec F S100000x40 .f32 :=
  logSoftmax (logits a b)

end Cert.Layers

end
-- ==== Proof.Graph.lean ====
/-
  The edge-list side of the graph convolution, as named functions, and the whole network as their composite.
  An edge e carries a source node s(e), a target node t(e) and a weight w(e). With deg(v) the sum of the weights of the
  edges into v, and d(v) = deg(v)^(-1/2) where deg(v) > 0 and 0 elsewhere, the edge's coefficient is
  n(e) = d(s(e)) · w(e) · d(t(e)), and a layer's aggregate at node v is the sum over the edges into v of
  h(s(e)) · n(e). Both programs compute these by the same host operations (a scatter-add for each sum, a gather for
  each lookup, a negative index wrapped once by the node count), so they are written here once, over the reference's
  records, and never opened: the two programs differ only in the four dense stages between them (Layers.lean).
-/
import proofs.«158233_j18399639896776_1_alg».proof.Proof.Layers

noncomputable section

namespace Cert.Graph

open Idealize.ShloMosaic Cert.ReferenceIdeal Cert.ReferenceIdeal.Gen Cert.Layers

variable {F : FTy → Type} [FloatOps F]

/-- Row 0 of the edge list: the source node of every edge. -/
def srcIx (ei : (⟨S2x3300000, .i32⟩ : BufTy).Contents (Elt F)) : (⟨S3300000, .i32⟩ : BufTy).Contents (Elt F) :=
  shapeCast _ (extractStridedSlice S1x3300000 ![0, 0] ei slices_S2x3300000_S1x3300000_0_0) shapeCasts_S1x3300000_S3300000

/-- Row 1 of the edge list: the target node of every edge. -/
def tgtIx (ei : (⟨S2x3300000, .i32⟩ : BufTy).Contents (Elt F)) : (⟨S3300000, .i32⟩ : BufTy).Contents (Elt F) :=
  shapeCast _ (extractStridedSlice S1x3300000 ![1, 0] ei slices_S2x3300000_S1x3300000_1_0) shapeCasts_S1x3300000_S3300000

/-- A node index made ready for a lookup: a negative one is moved up by the node count, as a column of start indices. -/
def lookupIx (ix : (⟨S3300000, .i32⟩ : BufTy).Contents (Elt F)) : (⟨S3300000x1, .i32⟩ : BufTy).Contents (Elt F) :=
  broadcastInDim S3300000x1 ![0] bcast_S3300000_S3300000x1_0
    (select (cmpi .slt ix (broadcastInDim S3300000 ![] bcast_S_S3300000 (constantI S_ 32 0#32)))
      (addi ix (broadcastInDim S3300000 ![] bcast_S_S3300000 (constantI S_ 32 100000#32))) ix)

/-- The target nodes as a column of scatter indices. -/
def scatterIx (tgt : (⟨S3300000, .i32⟩ : BufTy).Contents (Elt F)) : (⟨S3300000x1, .i32⟩ : BufTy).Contents (Elt F) :=
  broadcastInDim S3300000x1 ![0] bcast_S3300000_S3300000x1_0 tgt

/-- deg(v): the edge weights summed into their target nodes. -/
def degree (tgt : (⟨S3300000, .i32⟩ : BufTy).Contents (Elt F)) (ew : (⟨S3300000, .f32⟩ : BufTy).Contents (Elt F)) :
    (⟨S100000, .f32⟩ : BufTy).Contents (Elt F) :=
  Host.scatterAdd scatter_S100000_S3300000x1_S3300000_n_0_0_1
    (broadcastInDim S100000 ![] bcast_S_S100000 (constant S_ .f32 0x00000000#32)) (scatterIx tgt) ew

/-- d(v): the inverse square root of the degree where it is positive, zero elsewhere. -/
def invSqrtDeg (tgt : (⟨S3300000, .i32⟩ : BufTy).Contents (Elt F)) (ew : (⟨S3300000, .f32⟩ : BufTy).Contents (Elt F)) :
    (⟨S100000, .f32⟩ : BufTy).Contents (Elt F) :=
  select (cmpf .ogt (degree tgt ew) (broadcastInDim S100000 ![] bcast_S_S100000 (constant S_ .f32 0x00000000#32)))
    (Host.rsqrt (degree tgt ew))
    (broadcastInDim S100000 ![] bcast_S_S100000 (id (constant S_ .f32 0x00000000#32)))

/-- n(e) = d(s(e)) · w(e) · d(t(e)). -/
def edgeNorm (src tgt : (⟨S3300000, .i32⟩ : BufTy).Contents (Elt F)) (ew : (⟨S3300000, .f32⟩ : BufTy).Contents (Elt F)) :
    (⟨S3300000, .f32⟩ : BufTy).Contents (Elt F) :=
  mulf (mulf (Host.gather gather_S100000_S3300000x1_S3300000_n_0_n_n_0_1_1 (invSqrtDeg tgt ew) (lookupIx src)) ew)
    (Host.gather gather_S100000_S3300000x1_S3300000_n_0_n_n_0_1_1 (invSqrtDeg tgt ew) (lookupIx tgt))

/-- The first layer's aggregate: rows of `h` looked up by source, scaled by the edge's coefficient, summed by target. -/
def aggregate16 (h : (⟨S100000x16, .f32⟩ : BufTy).Contents (Elt F)) (src tgt : (⟨S3300000, .i32⟩ : BufTy).Contents (Elt F))
    (nrm : (⟨S3300000, .f32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant S_ .f32 0x00000000#32)) (scatterIx tgt)
    (mulf (Host.gather gather_S100000x16_S3300000x1_S3300000x16_1_0_n_n_0_1_116 h (lookupIx src))
      (broadcastInDim S3300000x16 ![0, 1] bcast_S3300000x1_S3300000x16_0_1
        (broadcastInDim S3300000x1 ![0] bcast_S3300000_S3300000x1_0 nrm)))

/-- The second layer's aggregate, the same at width 40. -/
def aggregate40 (h : (⟨S100000x40, .f32⟩ : BufTy).Contents (Elt F)) (src tgt : (⟨S3300000, .i32⟩ : BufTy).Contents (Elt F))
    (nrm : (⟨S3300000, .f32⟩ : BufTy).Contents (Elt F)) : (⟨S100000x40, .f32⟩ : BufTy).Contents (Elt F) :=
  Host.scatterAdd scatter_S100000x40_S3300000x1_S3300000x40_1_0_0_1
    (broadcastInDim S100000x40 ![] bcast_S_S100000x40 (constant S_ .f32 0x00000000#32)) (scatterIx tgt)
    (mulf (Host.gather gather_S100000x40_S3300000x1_S3300000x40_1_0_n_n_0_1_140 h (lookupIx src))
      (broadcastInDim S3300000x40 ![0, 1] bcast_S3300000x1_S3300000x40_0_1
        (broadcastInDim S3300000x1 ![0] bcast_S3300000_S3300000x1_0 nrm)))

/-- The network: two normalised graph convolutions, a relu between them, a row-wise log-softmax at the end. -/
def gcn (x : (⟨S100000x512, .f32⟩ : BufTy).Contents (Elt F)) (ei : (⟨S2x3300000, .i32⟩ : BufTy).Contents (Elt F))
    (ew : (⟨S3300000, .f32⟩ : BufTy).Contents (Elt F)) (w1 : (⟨S512x16, .f32⟩ : BufTy).Contents (Elt F))
    (b1 : (⟨S16, .f32⟩ : BufTy).Contents (Elt F)) (w2 : (⟨S16x40, .f32⟩ : BufTy).Contents (Elt F))
    (b2 : (⟨S40, .f32⟩ : BufTy).Contents (Elt F)) : (⟨S100000x40, .f32⟩ : BufTy).Contents (Elt F) :=
  biasLogSoftmax
    (aggregate40
      (dense2 (biasRelu (aggregate16 (dense1 x w1) (srcIx ei) (tgtIx ei) (edgeNorm (srcIx ei) (tgtIx ei) ew)) b1) w2)
      (srcIx ei) (tgtIx ei) (edgeNorm (srcIx ei) (tgtIx ei) ew))
    b2

end Cert.Graph

end
-- ==== Proof.Region0.lean ====
/-
  The first tiled call: the node features [100000, 512] times the first weight [512, 16], twenty row blocks of 5000.
  A row block of a product is the product of the row block: entry (p, q) of block t is the sum over k of
  x(5000 t + p, k) · w(k, q), which is entry (5000 t + p, q) of the whole product (the bf16 narrowing of the operands is
  the identity on the extended reals, and the product into a zero accumulator is the bare sum). The twenty blocks tile the
  output array, so after the call it holds the whole product.
-/
import proofs.«158233_j18399639896776_1_alg».proof.Proof.Gen.KernelIdeal.Frame
import proofs.«158233_j18399639896776_1_alg».proof.Proof.Layers
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

/-! ## The block product at an index -/

/-- The left factor of the block product at output index `j` and contraction index `q` sits in row `j 0` … -/
theorem lhs_block_0 (j : S5000x16.Idx) (q : dot_S5000x512_S512x16_S5000x16_1_0_0_1_n_n.contr.Idx) :
    (dot_S5000x512_S512x16_S5000x16_1_0_0_1_n_n.lhsIdx j q 0).val = (j 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
/-- … and column `q`; -/
theorem lhs_block_1 (j : S5000x16.Idx) (q : dot_S5000x512_S512x16_S5000x16_1_0_0_1_n_n.contr.Idx) :
    (dot_S5000x512_S512x16_S5000x16_1_0_0_1_n_n.lhsIdx j q 1).val = (q ⟨0, by decide⟩).val :=
  dot_S5000x512_S512x16_S5000x16_1_0_0_1_n_n.lhsIdx_val_of_single rfl j q
/-- the right factor sits in row `q` … -/
theorem rhs_block_0 (j : S5000x16.Idx) (q : dot_S5000x512_S512x16_S5000x16_1_0_0_1_n_n.contr.Idx) :
    (dot_S5000x512_S512x16_S5000x16_1_0_0_1_n_n.rhsIdx j q 0).val = (q ⟨0, by decide⟩).val :=
  dot_S5000x512_S512x16_S5000x16_1_0_0_1_n_n.rhsIdx_val_of_single rfl j q
/-- … and column `j 1`. -/
theorem rhs_block_1 (j : S5000x16.Idx) (q : dot_S5000x512_S512x16_S5000x16_1_0_0_1_n_n.contr.Idx) :
    (dot_S5000x512_S512x16_S5000x16_1_0_0_1_n_n.rhsIdx j q 1).val = (j 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-- Entry `(p, k)` of a block of 5000 feature rows. -/
abbrev blockRow (j : S5000x16.Idx) (k : Fin 512) : S5000x512.Idx := fun a => match a with
  | ⟨0, _⟩ => ⟨(j 0).val, (j 0).isLt⟩
  | ⟨1, _⟩ => ⟨k.val, k.isLt⟩
/-- Entry `(k, q)` of the weight. -/
abbrev weightCol (j : S5000x16.Idx) (k : Fin 512) : S512x16.Idx := fun a => match a with
  | ⟨0, _⟩ => ⟨k.val, k.isLt⟩
  | ⟨1, _⟩ => ⟨(j 1).val, (j 1).isLt⟩

/-- The body's product of a block of rows with the weight, read at an index: both narrowings are the identity on the
    extended reals and the accumulator is the zero splat, so entry `(p, q)` is the sum over `k` of `x (p, k) * w (k, q)`. -/
theorem blockProduct_apply (x : FVec Ideal S5000x512 .f32) (w : FVec Ideal S512x16 .f32) (j : S5000x16.Idx) :
    (k0_pay1 (F := Ideal)) x w j = ∑ k : Fin 512, x (blockRow j k) * w (weightCol j k) := by
  unfold k0_pay1
  simp only [matmul]
  rw [Ideal.matmul_constant_zero_apply, ← Equiv.sum_comp (contrEquiv1 dot_S5000x512_S512x16_S5000x16_1_0_0_1_n_n 512 rfl rfl).symm]
  refine Finset.sum_congr rfl fun k _ => ?_
  have hk := contrEquiv1_symm_val dot_S5000x512_S512x16_S5000x16_1_0_0_1_n_n 512 rfl rfl k
  have el : dot_S5000x512_S512x16_S5000x16_1_0_0_1_n_n.lhsIdx j ((contrEquiv1 dot_S5000x512_S512x16_S5000x16_1_0_0_1_n_n 512 rfl rfl).symm k) = blockRow j k := funext fun a => Fin.ext (by
    match a with
    | ⟨0, _⟩ => exact lhs_block_0 _ _
    | ⟨1, _⟩ => exact (lhs_block_1 _ _).trans hk)
  have er : dot_S5000x512_S512x16_S5000x16_1_0_0_1_n_n.rhsIdx j ((contrEquiv1 dot_S5000x512_S512x16_S5000x16_1_0_0_1_n_n 512 rfl rfl).symm k) = weightCol j k := funext fun a => Fin.ext (by
    match a with
    | ⟨0, _⟩ => exact (rhs_block_0 _ _).trans hk
    | ⟨1, _⟩ => exact rhs_block_1 _ _)
  rw [el, er]
  rfl

/-! ## The whole product at an index -/

/-- The left factor of the whole product at output index `i` and contraction index `q` sits in row `i 0` … -/
theorem lhs_whole_0 (i : S100000x16.Idx) (q : Cert.ReferenceIdeal.dot_S100000x512_S512x16_S100000x16_1_0_0_1_n_n.contr.Idx) :
    (Cert.ReferenceIdeal.dot_S100000x512_S512x16_S100000x16_1_0_0_1_n_n.lhsIdx i q 0).val = (i 0).val := by
  unfold DotDims.lhsIdx
  rw [dif_neg (show ¬(0 : Fin S100000x512.rank) ∈ Cert.ReferenceIdeal.dot_S100000x512_S512x16_S100000x16_1_0_0_1_n_n.lhsBatch by decide), dif_pos (show (0 : Fin S100000x512.rank) ∈ Cert.ReferenceIdeal.dot_S100000x512_S512x16_S100000x16_1_0_0_1_n_n.lhsNonContracting by decide)]
  rfl
/-- … and column `q`; -/
theorem lhs_whole_1 (i : S100000x16.Idx) (q : Cert.ReferenceIdeal.dot_S100000x512_S512x16_S100000x16_1_0_0_1_n_n.contr.Idx) :
    (Cert.ReferenceIdeal.dot_S100000x512_S512x16_S100000x16_1_0_0_1_n_n.lhsIdx i q 1).val = (q ⟨0, by decide⟩).val :=
  Cert.ReferenceIdeal.dot_S100000x512_S512x16_S100000x16_1_0_0_1_n_n.lhsIdx_val_of_single rfl i q
/-- the right factor sits in row `q` … -/
theorem rhs_whole_0 (i : S100000x16.Idx) (q : Cert.ReferenceIdeal.dot_S100000x512_S512x16_S100000x16_1_0_0_1_n_n.contr.Idx) :
    (Cert.ReferenceIdeal.dot_S100000x512_S512x16_S100000x16_1_0_0_1_n_n.rhsIdx i q 0).val = (q ⟨0, by decide⟩).val :=
  Cert.ReferenceIdeal.dot_S100000x512_S512x16_S100000x16_1_0_0_1_n_n.rhsIdx_val_of_single rfl i q
/-- … and column `i 1`. -/
theorem rhs_whole_1 (i : S100000x16.Idx) (q : Cert.ReferenceIdeal.dot_S100000x512_S512x16_S100000x16_1_0_0_1_n_n.contr.Idx) :
    (Cert.ReferenceIdeal.dot_S100000x512_S512x16_S100000x16_1_0_0_1_n_n.rhsIdx i q 1).val = (i 1).val := by
  unfold DotDims.rhsIdx
  rw [dif_neg (show ¬(1 : Fin S512x16.rank) ∈ Cert.ReferenceIdeal.dot_S100000x512_S512x16_S100000x16_1_0_0_1_n_n.rhsBatch by decide), dif_pos (show (1 : Fin S512x16.rank) ∈ Cert.ReferenceIdeal.dot_S100000x512_S512x16_S100000x16_1_0_0_1_n_n.rhsNonContracting by decide)]
  rfl

/-- Entry `(i 0, k)` of the features. -/
abbrev featureRow (i : S100000x16.Idx) (k : Fin 512) : S100000x512.Idx := fun a => match a with
  | ⟨0, _⟩ => ⟨(i 0).val, (i 0).isLt⟩
  | ⟨1, _⟩ => ⟨k.val, k.isLt⟩
/-- Entry `(k, i 1)` of the weight. -/
abbrev weightEntry (i : S100000x16.Idx) (k : Fin 512) : S512x16.Idx := fun a => match a with
  | ⟨0, _⟩ => ⟨k.val, k.isLt⟩
  | ⟨1, _⟩ => ⟨(i 1).val, (i 1).isLt⟩

/-- The whole product read at an index: entry `(r, q)` is the sum over `k` of `x (r, k) * w (k, q)`. -/
theorem dense1_apply (x : FVec Ideal S100000x512 .f32) (w : FVec Ideal S512x16 .f32) (i : S100000x16.Idx) :
    Cert.Layers.dense1 (F := Ideal) x w i = ∑ k : Fin 512, x (featureRow i k) * w (weightEntry i k) := by
  unfold Cert.Layers.dense1
  simp only [Host.dotGeneral]
  rw [Ideal.dotGeneral_apply, ← Equiv.sum_comp (contrEquiv1 Cert.ReferenceIdeal.dot_S100000x512_S512x16_S100000x16_1_0_0_1_n_n 512 rfl rfl).symm]
  refine Finset.sum_congr rfl fun k _ => ?_
  have hk := contrEquiv1_symm_val Cert.ReferenceIdeal.dot_S100000x512_S512x16_S100000x16_1_0_0_1_n_n 512 rfl rfl k
  have el : Cert.ReferenceIdeal.dot_S100000x512_S512x16_S100000x16_1_0_0_1_n_n.lhsIdx i ((contrEquiv1 Cert.ReferenceIdeal.dot_S100000x512_S512x16_S100000x16_1_0_0_1_n_n 512 rfl rfl).symm k) = featureRow i k := funext fun a => Fin.ext (by
    match a with
    | ⟨0, _⟩ => exact lhs_whole_0 _ _
    | ⟨1, _⟩ => exact (lhs_whole_1 _ _).trans hk)
  have er : Cert.ReferenceIdeal.dot_S100000x512_S512x16_S100000x16_1_0_0_1_n_n.rhsIdx i ((contrEquiv1 Cert.ReferenceIdeal.dot_S100000x512_S512x16_S100000x16_1_0_0_1_n_n 512 rfl rfl).symm k) = weightEntry i k := funext fun a => Fin.ext (by
    match a with
    | ⟨0, _⟩ => exact (rhs_whole_0 _ _).trans hk
    | ⟨1, _⟩ => exact rhs_whole_1 _ _)
  rw [el, er]

/-! ## From the twenty row blocks to the array -/

variable (V : (c : Dev nD) → (b : Ref sig .tc) → Buf (Elt Ideal) ((c : Thread nD τ).loc b))

/-- Both offsets of a whole-buffer access are zero. -/
theorem offsets_zero : (![0, 0] : Fin 2 → Nat) = fun _ => 0 := funext fun a => by fin_cases a <;> rfl

/-- The block index maps, decided over the twenty points: the feature window and the output window are both at row block
    `t`, column block 0; the weight window is at block (0, 0) throughout. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, q)` of the product of point `t`'s feature block with the weight is entry `(5000 t + p, q)` of the whole
    product: the block's row `p` is the features' row `5000 t + p`, the weight block is the whole weight, and the two sums
    over `k` agree term by term. -/
theorem blockProduct_eq (c : Dev nD) (t : Fin cfg0.N) (j : S5000x16.Idx) :
    (k0_pay1 (F := Ideal)) (iblk0 V c 0 t) (iblk0 V c 1 t) j
      = Cert.Layers.dense1 (F := Ideal) (V c main_arg0) (V c main_arg3) (((cfg0.win 2).blk t).view.emb j) := by
  obtain ⟨e0, e1, e2, e3, e4, e5⟩ := index_facts t
  refine (blockProduct_apply (iblk0 V c 0 t) (iblk0 V c 1 t) j).trans ?_
  refine Eq.trans ?_ (dense1_apply (V c main_arg0) (V c main_arg3) (((cfg0.win 2).blk t).view.emb j)).symm
  refine Finset.sum_congr rfl fun k _ => ?_
  have hx : iblk0 V c 0 t (blockRow j k) = V c main_arg0 (featureRow (((cfg0.win 2).blk t).view.emb j) k) := by
    show V c main_arg0 (((cfg0.win 0).blk t).view.emb (blockRow j k)) = _
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  have hw : iblk0 V c 1 t (weightCol j k) = V c main_arg3 (weightEntry (((cfg0.win 2).blk t).view.emb j) k) := by
    show V c main_arg3 (((cfg0.win 1).blk t).view.emb (weightCol j k)) = _
    refine congrArg _ (funext fun a => Fin.ext ?_)
    match a with
    | ⟨0, _⟩ => show win0_1.index t (0 : Fin 2) * 512 + 1 * k.val = k.val; omega
    | ⟨1, _⟩ => show win0_1.index t (1 : Fin 2) * 16 + 1 * (j 1).val = win0_2.index t (1 : Fin 2) * 16 + 1 * (j 1).val; omega
  rw [hx, hw]

/-- What point `t` writes back is row block `t` of the whole product. -/
theorem flushed_eq (c : Dev nD) (t : Fin cfg0.N) :
    (dat0 V c).flushed 2 t = ((cfg0.win 2).blk t).view.read (Elt Ideal) (Cert.Layers.dense1 (F := Ideal) (V c main_arg0) (V c main_arg3)) := by
  show (cfg0.win 2).cut (grid0.coords t) ((dat0 V c).after 2 t) = _
  rw [after0_2]
  unfold out0_2
  rw [View.canon_unit_zero offsets_zero]
  simp only [View.ld_unit_zero (S := S5000x512) offsets_zero, View.ld_unit_zero (S := S512x16) offsets_zero]
  funext j
  exact blockProduct_eq V c t j

/-- An index of the array is in point `t`'s block iff each coordinate is in the block's range on its axis. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v27).slice (win0_2.rect t)).set ↔ _
  rw [View.set_slice_whole, Rect.mem_set_unit]
  exact Iff.rfl

/-- Every index of the array is in some point's block: row `r` lies in row block `r / 5000`, and every point writes back. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨e0, e1, e2, e3, e4, e5⟩ := index_facts t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- After the first call's twenty row blocks have been written back, its output array is the whole product of the features with the first weight, whatever contents `V` the call is entered from. -/
theorem arr (c : Dev nD) :
    (dat0 V c).arrAt 2 cfg0.N = Cert.Layers.dense1 (F := Ideal) (V c main_arg0) (V c main_arg3) := by
  exact (dat0 V c).arrAt_eq_of_cover 2 (Cert.Layers.dense1 (F := Ideal) (V c main_arg0) (V c main_arg3))
    (fun t _ => flushed_eq V c t) covered

end Cert.KernelIdeal.Region0

end
-- ==== Proof.Region1.lean ====
/-
  The second tiled call: the first aggregate [100000, 16] plus the bias row, clamped below at zero, five row blocks of
  20000. The body is entry by entry — entry (p, q) of block t is max (a(20000 t + p, q) + b(q)) 0 — and so is the
  whole-array function, with the same zero word; the five blocks tile the output array.
-/
import proofs.«158233_j18399639896776_1_alg».proof.Proof.Gen.KernelIdeal.Frame
import proofs.«158233_j18399639896776_1_alg».proof.Proof.Layers
import Idealize.ShloMosaic.Lib.Pipeline.Value
import Idealize.ShloMosaic.Lib.ValueIdx
import Idealize.ShloMosaic.PureOps.Ideal.Laws
import Idealize.ShloMosaic.Lib.ValueLayout

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The two sides at one entry -/

/-- The body's value at row `p`, column `q` of a block: the block's entry plus the bias at `q`, clamped below at the
    zero word. -/
theorem pay_apply (x : FVec Ideal S20000x16 .f32) (b : FVec Ideal S16 .f32) (j : S20000x16.Idx) :
    (k1_pay1 (F := Ideal)) x b j = max (x j + b (ix1 (j 1))) (Scalar.ofBits (F := Ideal) .f32 0x00000000#32) := by
  obtain ⟨p, q, rfl⟩ : ∃ (p : Fin 20000) (q : Fin 16), j = ix2 p q := ⟨j 0, j 1, eq_ix2 j⟩
  unfold k1_pay1
  rw [shapeCast_self]
  show max (x (ix2 p q) + broadcastTo S20000x16 (shapeCast S1x16 b shapeCasts_S16_S1x16) broadcasts_S1x16_S20000x16 (ix2 p q)) _ = _
  rw [broadcastTo_1b_ab_apply, shapeCast_a_1a_apply]
  rfl

/-- The whole-array function at row `r`, column `q`: the array's entry plus the bias at `q`, clamped below at the
    same zero word. -/
theorem biasRelu_apply (a : FVec Ideal Cert.ReferenceIdeal.S100000x16 .f32) (b : FVec Ideal Cert.ReferenceIdeal.S16 .f32)
    (i : Cert.ReferenceIdeal.S100000x16.Idx) :
    Cert.Layers.biasRelu (F := Ideal) a b i = max (a i + b (ix1 (i 1))) (Scalar.ofBits (F := Ideal) .f32 0x00000000#32) := by
  obtain ⟨r, q, rfl⟩ : ∃ (r : Fin 100000) (q : Fin 16), i = ix2 r q := ⟨i 0, i 1, eq_ix2 i⟩
  unfold Cert.Layers.biasRelu
  -- the bias laid down the rows: first as one row, then that row repeated
  have e1 := broadcastInDim_apply ![0, 1] Cert.ReferenceIdeal.Gen.bcast_S1x16_S100000x16_0_1
    (broadcastInDim Cert.ReferenceIdeal.S1x16 ![1] Cert.ReferenceIdeal.Gen.bcast_S16_S1x16_1 b) (ix2 r q) (ix2 (0 : Fin 1) q)
    (fun ax => match ax with | ⟨0, _⟩ => rfl | ⟨1, _⟩ => rfl)
  have e2 := broadcastInDim_apply ![1] Cert.ReferenceIdeal.Gen.bcast_S16_S1x16_1 b (ix2 (0 : Fin 1) q) (ix1 q)
    (fun ax => match ax with | ⟨0, _⟩ => rfl)
  show max (a (ix2 r q) + broadcastInDim Cert.ReferenceIdeal.S100000x16 ![0, 1] _ (broadcastInDim Cert.ReferenceIdeal.S1x16 ![1] _ b) (ix2 r q)) _ = _
  rw [e1, e2]
  rfl

/-- The common expression read at equal entries of the aggregate and of the bias. -/
theorem entry_congr (A : FVec Ideal S100000x16 .f32) (B : FVec Ideal S16 .f32) (z : Ideal .f32)
    (i i' : S100000x16.Idx) (k k' : S16.Idx) (hi : i = i') (hk : k = k') :
    max (A i + B k) z = max (A i' + B k') z := by rw [hi, hk]

/-! ## The index maps over the five points -/

/-- The zero offsets of a whole two-axis block, as the constant function. -/
theorem zero2 : (![0, 0] : Fin 2 → Nat) = fun _ => 0 := funext fun a => by fin_cases a <;> rfl
/-- The zero offset of a whole one-axis block, as the constant function. -/
theorem zero1 : (![0] : Fin 1 → Nat) = fun _ => 0 := funext fun a => by fin_cases a; rfl

/-- Point `t` reads row block `t` of the aggregate and the whole bias, and writes row block `t` of the output. -/
theorem idx_facts : ∀ t : Fin cfg1.N,
    win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-! ## What a point writes back -/

/-- Point `t` writes back block `t` of the whole-array function of the two arrays the call reads. -/
theorem flushed_eq (c : Dev nD) (t : Fin cfg1.N) :
    (dat1 V c).flushed 2 t
      = ((cfg1.win 2).blk t).view.read (Elt Ideal) (Cert.Layers.biasRelu (F := Ideal) (V c main_v40) (V c main_arg4)) := by
  show (cfg1.win 2).cut (grid1.coords t) ((dat1 V c).after 2 t) = _
  rw [after1_2]
  unfold out1_2
  rw [View.canon_unit_zero zero2]
  simp only [View.ld_unit_zero (S := S20000x16) zero2, View.ld_unit_zero (S := S16) zero1]
  obtain ⟨e0, e1, e2, e3, e4⟩ := idx_facts t
  funext j
  refine (pay_apply _ _ j).trans ?_
  refine Eq.trans ?_ (biasRelu_apply _ _ _).symm
  -- the aggregate's block and the output's block are the same rows; the bias block is the whole bias
  have h0 : ((cfg1.win 0).blk t).view.emb j = ((cfg1.win 2).blk t).view.emb j := by
    funext a; apply Fin.ext
    match a with
    | ⟨0, _⟩ => show win1_0.index t (0 : Fin 2) * 20000 + 1 * (j 0).val = win1_2.index t (0 : Fin 2) * 20000 + 1 * (j 0).val; omega
    | ⟨1, _⟩ => show win1_0.index t (1 : Fin 2) * 16 + 1 * (j 1).val = win1_2.index t (1 : Fin 2) * 16 + 1 * (j 1).val; omega
  have h1 : ((cfg1.win 1).blk t).view.emb (ix1 (j 1)) = ix1 ((((cfg1.win 2).blk t).view.emb j) 1) := by
    funext a; apply Fin.ext
    match a with
    | ⟨0, _⟩ => show win1_1.index t (0 : Fin 1) * 16 + 1 * (j 1).val = win1_2.index t (1 : Fin 2) * 16 + 1 * (j 1).val; omega
  exact entry_congr (V c main_v40) (V c main_arg4) _ _ _ _ _ h0 h1

/-! ## The five blocks tile the array -/

/-- An entry of the array is in point `t`'s block iff each coordinate is in the block's range on its axis. -/
theorem mem_blk (t : Fin cfg1.N) (i : S100000x16.Idx) :
    i ∈ ((cfg1.win 2).blk t).view.set ↔ ∀ a : Fin 2, win1_2.index t a * S20000x16.size a ≤ (i a).val ∧ (i a).val < win1_2.index t a * S20000x16.size a + S20000x16.size a := by
  show i ∈ ((View.whole main_v41).slice (win1_2.rect t)).set ↔ _
  rw [View.set_slice_whole, Rect.mem_set_unit]
  exact Iff.rfl

/-- Row `r` of the array lies in the block of point `r / 20000`, and every point writes back. -/
theorem cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : grid1.N = 5 := N_1
  have ht : (i 0).val / 20000 < cfg1.N := by show _ < grid1.N; rw [hN]; omega
  obtain ⟨e0, e1, e2, e3, e4⟩ := idx_facts ⟨(i 0).val / 20000, ht⟩
  refine ⟨⟨(i 0).val / 20000, ht⟩, flush1_2 _, ?_⟩
  rw [mem_blk]
  intro a
  match a with
  | ⟨0, _⟩ =>
    show win1_2.index ⟨(i 0).val / 20000, ht⟩ (0 : Fin 2) * 20000 ≤ (i 0).val
      ∧ (i 0).val < win1_2.index ⟨(i 0).val / 20000, ht⟩ (0 : Fin 2) * 20000 + 20000
    rw [e3]
    show (i 0).val / 20000 * 20000 ≤ (i 0).val ∧ (i 0).val < (i 0).val / 20000 * 20000 + 20000
    omega
  | ⟨1, _⟩ =>
    show win1_2.index ⟨(i 0).val / 20000, ht⟩ (1 : Fin 2) * 16 ≤ (i 1).val
      ∧ (i 1).val < win1_2.index ⟨(i 0).val / 20000, ht⟩ (1 : Fin 2) * 16 + 16
    rw [e4]
    omega

/-- After the second call's five row blocks have been written back, its output array is the aggregate plus the bias row, clamped at zero, over the whole array. -/
theorem arr (c : Dev nD) :
    (dat1 V c).arrAt 2 cfg1.N = Cert.Layers.biasRelu (F := Ideal) (V c main_v40) (V c main_arg4) :=
  (dat1 V c).arrAt_eq_of_cover 2 _ (fun t _ => flushed_eq V c t) cover

end Cert.KernelIdeal.Region1

end
-- ==== Proof.Region2.lean ====
/-
  The third tiled call: the hidden features [100000, 16] times the second weight [16, 40], five row blocks of 20000.
  As for the first product: entry (p, q) of block t is the sum over k of h(20000 t + p, k) · w(k, q), entry
  (20000 t + p, q) of the whole product; the five blocks tile the output array.
-/
import proofs.«158233_j18399639896776_1_alg».proof.Proof.Gen.KernelIdeal.Frame
import proofs.«158233_j18399639896776_1_alg».proof.Proof.Layers
import Idealize.ShloMosaic.Lib.Pipeline.Value
import Idealize.ShloMosaic.Lib.ValueIdx
import Idealize.ShloMosaic.PureOps.Ideal.Laws

noncomputable section

namespace Cert.KernelIdeal.Region2

open Cert.KernelIdeal Cert.KernelIdeal.Gen Idealize.ShloMosaic Idealize.ShloMosaic.TcCoe Idealize.SL.Sem
open Idealize.ShloMosaic.Pipeline (Dat)

open Idealize.ShloMosaic.ValueIdx

/-! ## The block product at an index -/

/-- The left factor of the block product at output index `j` and contraction index `q` sits in row `j 0` … -/
theorem lhs_block_0 (j : S20000x40.Idx) (q : dot_S20000x16_S16x40_S20000x40_1_0_0_1_n_n.contr.Idx) :
    (dot_S20000x16_S16x40_S20000x40_1_0_0_1_n_n.lhsIdx j q 0).val = (j 0).val := by
  unfold DotDims.lhsIdx
  rw [dif_neg (show ¬(0 : Fin S20000x16.rank) ∈ dot_S20000x16_S16x40_S20000x40_1_0_0_1_n_n.lhsBatch by decide), dif_pos (show (0 : Fin S20000x16.rank) ∈ dot_S20000x16_S16x40_S20000x40_1_0_0_1_n_n.lhsNonContracting by decide)]
  rfl
/-- … and column `q`; -/
theorem lhs_block_1 (j : S20000x40.Idx) (q : dot_S20000x16_S16x40_S20000x40_1_0_0_1_n_n.contr.Idx) :
    (dot_S20000x16_S16x40_S20000x40_1_0_0_1_n_n.lhsIdx j q 1).val = (q ⟨0, by decide⟩).val :=
  dot_S20000x16_S16x40_S20000x40_1_0_0_1_n_n.lhsIdx_val_of_single rfl j q
/-- the right factor sits in row `q` … -/
theorem rhs_block_0 (j : S20000x40.Idx) (q : dot_S20000x16_S16x40_S20000x40_1_0_0_1_n_n.contr.Idx) :
    (dot_S20000x16_S16x40_S20000x40_1_0_0_1_n_n.rhsIdx j q 0).val = (q ⟨0, by decide⟩).val :=
  dot_S20000x16_S16x40_S20000x40_1_0_0_1_n_n.rhsIdx_val_of_single rfl j q
/-- … and column `j 1`. -/
theorem rhs_block_1 (j : S20000x40.Idx) (q : dot_S20000x16_S16x40_S20000x40_1_0_0_1_n_n.contr.Idx) :
    (dot_S20000x16_S16x40_S20000x40_1_0_0_1_n_n.rhsIdx j q 1).val = (j 1).val := by
  unfold DotDims.rhsIdx
  rw [dif_neg (show ¬(1 : Fin S16x40.rank) ∈ dot_S20000x16_S16x40_S20000x40_1_0_0_1_n_n.rhsBatch by decide), dif_pos (show (1 : Fin S16x40.rank) ∈ dot_S20000x16_S16x40_S20000x40_1_0_0_1_n_n.rhsNonContracting by decide)]
  rfl

/-- Entry `(p, k)` of a block of 20000 rows of hidden features. -/
abbrev blockRow (j : S20000x40.Idx) (k : Fin 16) : S20000x16.Idx := fun a => match a with
  | ⟨0, _⟩ => ⟨(j 0).val, (j 0).isLt⟩
  | ⟨1, _⟩ => ⟨k.val, k.isLt⟩
/-- Entry `(k, q)` of the weight. -/
abbrev weightCol (j : S20000x40.Idx) (k : Fin 16) : S16x40.Idx := fun a => match a with
  | ⟨0, _⟩ => ⟨k.val, k.isLt⟩
  | ⟨1, _⟩ => ⟨(j 1).val, (j 1).isLt⟩

/-- The body's product of a block of rows with the weight, read at an index: the reshape in front is to the block's own
    shape, both narrowings are the identity on the extended reals and the accumulator is the zero splat, so entry
    `(p, q)` is the sum over `k` of `x (p, k) * w (k, q)`. -/
theorem blockProduct_apply (x : FVec Ideal S20000x16 .f32) (w : FVec Ideal S16x40 .f32) (j : S20000x40.Idx) :
    (k2_pay1 (F := Ideal)) x w j = ∑ k : Fin 16, x (blockRow j k) * w (weightCol j k) := by
  unfold k2_pay1
  simp only [matmul, shapeCast_self]
  rw [Ideal.matmul_constant_zero_apply, ← Equiv.sum_comp (contrEquiv1 dot_S20000x16_S16x40_S20000x40_1_0_0_1_n_n 16 rfl rfl).symm]
  refine Finset.sum_congr rfl fun k _ => ?_
  have hk := contrEquiv1_symm_val dot_S20000x16_S16x40_S20000x40_1_0_0_1_n_n 16 rfl rfl k
  have el : dot_S20000x16_S16x40_S20000x40_1_0_0_1_n_n.lhsIdx j ((contrEquiv1 dot_S20000x16_S16x40_S20000x40_1_0_0_1_n_n 16 rfl rfl).symm k) = blockRow j k := funext fun a => Fin.ext (by
    match a with
    | ⟨0, _⟩ => exact lhs_block_0 _ _
    | ⟨1, _⟩ => exact (lhs_block_1 _ _).trans hk)
  have er : dot_S20000x16_S16x40_S20000x40_1_0_0_1_n_n.rhsIdx j ((contrEquiv1 dot_S20000x16_S16x40_S20000x40_1_0_0_1_n_n 16 rfl rfl).symm k) = weightCol j k := funext fun a => Fin.ext (by
    match a with
    | ⟨0, _⟩ => exact (rhs_block_0 _ _).trans hk
    | ⟨1, _⟩ => exact rhs_block_1 _ _)
  rw [el, er]
  rfl

/-! ## The whole product at an index -/

/-- The left factor of the whole product at output index `i` and contraction index `q` sits in row `i 0` … -/
theorem lhs_whole_0 (i : S100000x40.Idx) (q : Cert.ReferenceIdeal.dot_S100000x16_S16x40_S100000x40_1_0_0_1_n_n.contr.Idx) :
    (Cert.ReferenceIdeal.dot_S100000x16_S16x40_S100000x40_1_0_0_1_n_n.lhsIdx i q 0).val = (i 0).val := by
  unfold DotDims.lhsIdx
  rw [dif_neg (show ¬(0 : Fin S100000x16.rank) ∈ Cert.ReferenceIdeal.dot_S100000x16_S16x40_S100000x40_1_0_0_1_n_n.lhsBatch by decide), dif_pos (show (0 : Fin S100000x16.rank) ∈ Cert.ReferenceIdeal.dot_S100000x16_S16x40_S100000x40_1_0_0_1_n_n.lhsNonContracting by decide)]
  rfl
/-- … and column `q`; -/
theorem lhs_whole_1 (i : S100000x40.Idx) (q : Cert.ReferenceIdeal.dot_S100000x16_S16x40_S100000x40_1_0_0_1_n_n.contr.Idx) :
    (Cert.ReferenceIdeal.dot_S100000x16_S16x40_S100000x40_1_0_0_1_n_n.lhsIdx i q 1).val = (q ⟨0, by decide⟩).val :=
  Cert.ReferenceIdeal.dot_S100000x16_S16x40_S100000x40_1_0_0_1_n_n.lhsIdx_val_of_single rfl i q
/-- the right factor sits in row `q` … -/
theorem rhs_whole_0 (i : S100000x40.Idx) (q : Cert.ReferenceIdeal.dot_S100000x16_S16x40_S100000x40_1_0_0_1_n_n.contr.Idx) :
    (Cert.ReferenceIdeal.dot_S100000x16_S16x40_S100000x40_1_0_0_1_n_n.rhsIdx i q 0).val = (q ⟨0, by decide⟩).val :=
  Cert.ReferenceIdeal.dot_S100000x16_S16x40_S100000x40_1_0_0_1_n_n.rhsIdx_val_of_single rfl i q
/-- … and column `i 1`. -/
theorem rhs_whole_1 (i : S100000x40.Idx) (q : Cert.ReferenceIdeal.dot_S100000x16_S16x40_S100000x40_1_0_0_1_n_n.contr.Idx) :
    (Cert.ReferenceIdeal.dot_S100000x16_S16x40_S100000x40_1_0_0_1_n_n.rhsIdx i q 1).val = (i 1).val := by
  unfold DotDims.rhsIdx
  rw [dif_neg (show ¬(1 : Fin S16x40.rank) ∈ Cert.ReferenceIdeal.dot_S100000x16_S16x40_S100000x40_1_0_0_1_n_n.rhsBatch by decide), dif_pos (show (1 : Fin S16x40.rank) ∈ Cert.ReferenceIdeal.dot_S100000x16_S16x40_S100000x40_1_0_0_1_n_n.rhsNonContracting by decide)]
  rfl

/-- Entry `(i 0, k)` of the hidden features. -/
abbrev hiddenRow (i : S100000x40.Idx) (k : Fin 16) : S100000x16.Idx := fun a => match a with
  | ⟨0, _⟩ => ⟨(i 0).val, (i 0).isLt⟩
  | ⟨1, _⟩ => ⟨k.val, k.isLt⟩
/-- Entry `(k, i 1)` of the weight. -/
abbrev weightEntry (i : S100000x40.Idx) (k : Fin 16) : S16x40.Idx := fun a => match a with
  | ⟨0, _⟩ => ⟨k.val, k.isLt⟩
  | ⟨1, _⟩ => ⟨(i 1).val, (i 1).isLt⟩

/-- The whole product read at an index: entry `(r, q)` is the sum over `k` of `h (r, k) * w (k, q)`. -/
theorem dense2_apply (h : FVec Ideal S100000x16 .f32) (w : FVec Ideal S16x40 .f32) (i : S100000x40.Idx) :
    Cert.Layers.dense2 (F := Ideal) h w i = ∑ k : Fin 16, h (hiddenRow i k) * w (weightEntry i k) := by
  unfold Cert.Layers.dense2
  simp only [Host.dotGeneral]
  rw [Ideal.dotGeneral_apply, ← Equiv.sum_comp (contrEquiv1 Cert.ReferenceIdeal.dot_S100000x16_S16x40_S100000x40_1_0_0_1_n_n 16 rfl rfl).symm]
  refine Finset.sum_congr rfl fun k _ => ?_
  have hk := contrEquiv1_symm_val Cert.ReferenceIdeal.dot_S100000x16_S16x40_S100000x40_1_0_0_1_n_n 16 rfl rfl k
  have el : Cert.ReferenceIdeal.dot_S100000x16_S16x40_S100000x40_1_0_0_1_n_n.lhsIdx i ((contrEquiv1 Cert.ReferenceIdeal.dot_S100000x16_S16x40_S100000x40_1_0_0_1_n_n 16 rfl rfl).symm k) = hiddenRow i k := funext fun a => Fin.ext (by
    match a with
    | ⟨0, _⟩ => exact lhs_whole_0 _ _
    | ⟨1, _⟩ => exact (lhs_whole_1 _ _).trans hk)
  have er : Cert.ReferenceIdeal.dot_S100000x16_S16x40_S100000x40_1_0_0_1_n_n.rhsIdx i ((contrEquiv1 Cert.ReferenceIdeal.dot_S100000x16_S16x40_S100000x40_1_0_0_1_n_n 16 rfl rfl).symm k) = weightEntry i k := funext fun a => Fin.ext (by
    match a with
    | ⟨0, _⟩ => exact (rhs_whole_0 _ _).trans hk
    | ⟨1, _⟩ => exact rhs_whole_1 _ _)
  rw [el, er]

variable (V : (c : Dev nD) → (b : Ref sig .tc) → Buf (Elt Ideal) ((c : Thread nD τ).loc b))

/-! ## From the five row blocks to the array -/

/-- Both offsets of a whole-buffer access are zero. -/
theorem offsets_zero : (![0, 0] : Fin 2 → Nat) = fun _ => 0 := funext fun a => by fin_cases a <;> rfl

/-- The block index maps, decided over the five points: the hidden-feature window and the output window are both at row
    block `t`, column block 0; the weight window is at block (0, 0) throughout. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `(p, q)` of the product of point `t`'s block of hidden features with the weight is entry `(20000 t + p, q)` of
    the whole product: the block's row `p` is the hidden features' row `20000 t + p`, the weight block is the whole weight,
    and the two sums over `k` agree term by term. -/
theorem blockProduct_eq (c : Dev nD) (t : Fin cfg2.N) (j : S20000x40.Idx) :
    (k2_pay1 (F := Ideal)) (iblk2 V c 0 t) (iblk2 V c 1 t) j
      = Cert.Layers.dense2 (F := Ideal) (V c main_v41) (V c main_arg5) (((cfg2.win 2).blk t).view.emb j) := by
  obtain ⟨e0, e1, e2, e3, e4, e5⟩ := index_facts t
  refine (blockProduct_apply (iblk2 V c 0 t) (iblk2 V c 1 t) j).trans ?_
  refine Eq.trans ?_ (dense2_apply (V c main_v41) (V c main_arg5) (((cfg2.win 2).blk t).view.emb j)).symm
  refine Finset.sum_congr rfl fun k _ => ?_
  have hx : iblk2 V c 0 t (blockRow j k) = V c main_v41 (hiddenRow (((cfg2.win 2).blk t).view.emb j) k) := by
    show V c main_v41 (((cfg2.win 0).blk t).view.emb (blockRow j k)) = _
    refine congrArg _ (funext fun a => Fin.ext ?_)
    match a with
    | ⟨0, _⟩ => show win2_0.index t (0 : Fin 2) * 20000 + 1 * (j 0).val = win2_2.index t (0 : Fin 2) * 20000 + 1 * (j 0).val; omega
    | ⟨1, _⟩ => show win2_0.index t (1 : Fin 2) * 16 + 1 * k.val = k.val; omega
  have hw : iblk2 V c 1 t (weightCol j k) = V c main_arg5 (weightEntry (((cfg2.win 2).blk t).view.emb j) k) := by
    show V c main_arg5 (((cfg2.win 1).blk t).view.emb (weightCol j k)) = _
    refine congrArg _ (funext fun a => Fin.ext ?_)
    match a with
    | ⟨0, _⟩ => show win2_1.index t (0 : Fin 2) * 16 + 1 * k.val = k.val; omega
    | ⟨1, _⟩ => show win2_1.index t (1 : Fin 2) * 40 + 1 * (j 1).val = win2_2.index t (1 : Fin 2) * 40 + 1 * (j 1).val; omega
  rw [hx, hw]

/-- What point `t` writes back is row block `t` of the whole product. -/
theorem flushed_eq (c : Dev nD) (t : Fin cfg2.N) :
    (dat2 V c).flushed 2 t = ((cfg2.win 2).blk t).view.read (Elt Ideal) (Cert.Layers.dense2 (F := Ideal) (V c main_v41) (V c main_arg5)) := by
  show (cfg2.win 2).cut (grid2.coords t) ((dat2 V c).after 2 t) = _
  rw [after2_2]
  unfold out2_2
  rw [View.canon_unit_zero offsets_zero]
  simp only [View.ld_unit_zero (S := S20000x16) offsets_zero, View.ld_unit_zero (S := S16x40) offsets_zero]
  funext j
  exact blockProduct_eq V c t j

/-- An index of the array is in point `t`'s block iff each coordinate is in the block's range on its axis. -/
theorem mem_block (t : Fin cfg2.N) (i : S100000x40.Idx) :
    i ∈ ((cfg2.win 2).blk t).view.set ↔ ∀ a : Fin 2, win2_2.index t a * S20000x40.size a ≤ (i a).val ∧ (i a).val < win2_2.index t a * S20000x40.size a + S20000x40.size a := by
  show i ∈ ((View.whole main_v42).slice (win2_2.rect t)).set ↔ _
  rw [View.set_slice_whole, Rect.mem_set_unit]
  exact Iff.rfl

/-- Every index of the array is in some point's block: row `r` lies in row block `r / 20000`, and every point writes back. -/
theorem covered (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ : ∃ t : Fin cfg2.N, t.val = (i 0).val / 20000 :=
    ⟨⟨(i 0).val / 20000, by show (i 0).val / 20000 < grid2.N; rw [N_2]; omega⟩, rfl⟩
  obtain ⟨e0, e1, e2, e3, e4, e5⟩ := index_facts t
  refine ⟨t, flush2_2 t, ?_⟩
  rw [mem_block]
  intro a
  match a with
  | ⟨0, _⟩ => show win2_2.index t (0 : Fin 2) * 20000 ≤ (i 0).val ∧ (i 0).val < win2_2.index t (0 : Fin 2) * 20000 + 20000; omega
  | ⟨1, _⟩ => show win2_2.index t (1 : Fin 2) * 40 ≤ (i 1).val ∧ (i 1).val < win2_2.index t (1 : Fin 2) * 40 + 40; omega

/-- After the third call's five row blocks have been written back, its output array is the whole product of the hidden features with the second weight. -/
theorem arr (c : Dev nD) :
    (dat2 V c).arrAt 2 cfg2.N = Cert.Layers.dense2 (F := Ideal) (V c main_v41) (V c main_arg5) := by
  exact (dat2 V c).arrAt_eq_of_cover 2 (Cert.Layers.dense2 (F := Ideal) (V c main_v41) (V c main_arg5))
    (fun t _ => flushed_eq V c t) covered

end Cert.KernelIdeal.Region2

end
-- ==== Proof.LibColumn.lean ====
/-
  Column vectors at an index. A sum along the last axis of an `[a, n]` array is an `[a]` array; kept as a column it is
  viewed as `[a, 1]` and then laid across the `b` columns of an `[a, b]` array, so that every entry of a row meets its
  row's sum. Read at an index, each of the three steps moves no data: the cast reads the same position, the spread
  reads its row's one entry, and the sum at row `r` adds the row's `n` entries.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

variable {α : Type}

/-- An `[a]` array cast to the column `[a, 1]` reads, at `(i, u)`, the operand at `i`, whatever the unit coordinate `u`:
    position `i · 1 + u` of the column is position `i` of the array. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a sum along axis 1 of a rank-2 array, over row `r` with coordinate `k` on the summed axis, is
    `(r, k)`. -/
theorem lift_last_ix1 {a n : ℕ} (h : (⟨2, ![a, n]⟩ : Shape).Reduces [1] ⟨1, ![a]⟩) (r : Fin a) (k : Fin n) :
    h.lift (ix1 r) k = ix2 r k := by
  funext c
  apply Fin.ext
  show h.liftVal (ix1 r) k.val c = (ix2 r k c).val
  unfold Shape.Reduces.liftVal
  match c with
  | ⟨0, _⟩ => rfl
  | ⟨1, _⟩ => rfl

/-- At the extended reals a lane sum along the last axis of an `[a, n]` array (from the neutral zero, which the reading
    drops) is, at row `r`, the sum of the row's `n` entries. The hypothesis on the accumulator word is typed as a printed
    program carries it: the zero word equal to itself. -/
theorem multiReduction_add_last_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin n, src (ix2 r k) := by
  refine (Ideal.multiReduction_add_single src 0x00000000#32 h hφ hacc (ix1 r)).trans ?_
  exact Finset.sum_congr rfl fun k _ => congrArg src (lift_last_ix1 h r k)

end Cert.LibColumn

end
-- ==== Proof.Region3.lean ====
/-
  The fourth tiled call: the second aggregate [100000, 40] plus the bias row, then the log-softmax along each row, five
  row blocks of 20000. A row of 40 entries lies inside one block, so the block's row maximum (folded from minus infinity)
  and row sum of exponentials are the array's; the reference takes the maximum once more against minus infinity, the
  least extended real, which changes nothing. Both sides at entry (20000 t + p, q) are the same expression of the
  aggregate's row 20000 t + p and the bias; the five blocks tile the output array.
-/
import proofs.«158233_j18399639896776_1_alg».proof.Proof.Gen.KernelIdeal.Frame
import proofs.«158233_j18399639896776_1_alg».proof.Proof.Layers
import proofs.«158233_j18399639896776_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## One row

Both programs compute, along each row `r` of 40 logits, `r q - max r - log (∑ k, exp (r k - max r))`, the maximum
taken from minus infinity. -/

/-- The maximum of a row of 40 entries, folded from minus infinity. -/
def rowMax (r : Fin 40 → Ideal .f32) : Ideal .f32 :=
  (Finset.univ : Finset (Fin 40)).fold max (Ideal.ofBits .f32 0xFF800000#32) r

/-- The log-softmax of one row at column `q`. -/
def rowLogSoftmax (r : Fin 40 → Ideal .f32) (q : Fin 40) : Ideal .f32 :=
  (r q - rowMax r) - Ideal.log (∑ k : Fin 40, Ideal.exp (r k - rowMax r))

/-! ## The kernel's block at an index -/

/-- The logarithm and the exponential of a vector, at an index. -/
theorem log_apply {s : Shape} (x : FVec Ideal s .f32) (i : s.Idx) : log x i = Ideal.log (x i) := rfl
theorem exp_apply {s : Shape} (x : FVec Ideal s .f32) (i : s.Idx) : exp x i = Ideal.exp (x i) := rfl

/-- The block's logits: the aggregate's block plus the bias, the bias viewed as one row and spread down the block. -/
theorem logits_blk_apply (zb : FVec Ideal S20000x40 .f32) (b : FVec Ideal S40 .f32)
    (h1 : S20000x40.ShapeCasts S20000x40) (h2 : S40.ShapeCasts S1x40) (h3 : S1x40.Broadcasts S20000x40)
    (p : Fin 20000) (k : Fin 40) :
    addf (shapeCast S20000x40 zb h1) (broadcastTo S20000x40 (shapeCast S1x40 b h2) h3) (ix2 p k)
      = zb (ix2 p k) + b (ix1 k) := by
  rw [addf_apply, shapeCast_self]
  refine congrArg (zb (ix2 p k) + ·) ?_
  exact (broadcastTo_1b_ab_apply _ h3 p k).trans (shapeCast_a_1a_apply b h2 0 k)

/-- A block's row maximum, kept as a column and spread across the 40 columns, reads at `(p, q)` the fold of `max`
    from minus infinity over row `p`. -/
theorem rowMax_blk_apply (x : FVec Ideal S20000x40 .f32) (h : S20000x40.Reduces [1] S20000) (hφ : FKind.Formats .f32)
    (hacc : (0xFF800000#32 : BitVec 32) = 0xFF800000#32) (hc : S20000.ShapeCasts S20000x1)
    (hb : S20000x1.Broadcasts S20000x40) (p : Fin 20000) (q : Fin 40) :
    broadcastTo S20000x40 (shapeCast S20000x1 (multiReduction .maximumf [1] S20000 x 0xFF800000#32 h hφ hacc) hc) hb (ix2 p q)
      = rowMax fun k => x (ix2 p k) := by
  refine (Cert.LibColumn.broadcastTo_a1_ab_apply _ hb p q).trans ?_
  refine (Cert.LibColumn.shapeCast_a_a1_apply _ hc p 0).trans ?_
  refine (Ideal.multiReduction_maximumf_single x 0xFF800000#32 h hφ hacc (ix1 p)).trans ?_
  unfold rowMax
  exact congrArg (fun f => (Finset.univ : Finset (Fin 40)).fold max (Ideal.ofBits .f32 0xFF800000#32) f)
    (funext fun k => congrArg x (Cert.LibColumn.lift_last_ix1 h p k))

/-- The log of a block's row sums, taken on the column and spread across the 40 columns, reads at `(p, q)` the log of
    the sum of row `p`. -/
theorem logRowSum_blk_apply (e : FVec Ideal S20000x40 .f32) (h : S20000x40.Reduces [1] S20000) (hφ : FKind.Formats .f32)
    (hacc : (0x00000000#32 : BitVec 32) = 0x00000000#32) (hc : S20000.ShapeCasts S20000x1)
    (hb : S20000x1.Broadcasts S20000x40) (p : Fin 20000) (q : Fin 40) :
    broadcastTo S20000x40 (log (shapeCast S20000x1 (multiReduction .add [1] S20000 e 0x00000000#32 h hφ hacc) hc)) hb (ix2 p q)
      = Ideal.log (∑ k : Fin 40, e (ix2 p k)) := by
  refine (Cert.LibColumn.broadcastTo_a1_ab_apply _ hb p q).trans ?_
  refine (log_apply _ _).trans (congrArg Ideal.log ?_)
  refine (Cert.LibColumn.shapeCast_a_a1_apply _ hc p 0).trans ?_
  exact Cert.LibColumn.multiReduction_add_last_apply e h hφ hacc p

/-- THE KERNEL'S PAYLOAD at `(p, q)` of a block: the row log-softmax of the block's row `p` plus the bias. -/
theorem pay_apply (zb : FVec Ideal S20000x40 .f32) (b : FVec Ideal S40 .f32) (p : Fin 20000) (q : Fin 40) :
    (k3_pay1 (F := Ideal)) zb b (ix2 p q) = rowLogSoftmax (fun k => zb (ix2 p k) + b (ix1 k)) q := by
  unfold k3_pay1
  dsimp only
  generalize hz : addf (shapeCast S20000x40 zb shapeCasts_S20000x40_S20000x40)
    (broadcastTo S20000x40 (shapeCast S1x40 b shapeCasts_S40_S1x40) broadcasts_S1x40_S20000x40) = z
  have hzv : ∀ k : Fin 40, z (ix2 p k) = zb (ix2 p k) + b (ix1 k) := fun k => by
    rw [← hz]; exact logits_blk_apply zb b _ _ _ p k
  have hr : (fun k : Fin 40 => z (ix2 p k)) = fun k => zb (ix2 p k) + b (ix1 k) := funext hzv
  rw [subf_apply, logRowSum_blk_apply]
  unfold rowLogSoftmax
  refine congrArg₂ (· - ·) ?_ (congrArg Ideal.log (Finset.sum_congr rfl fun k _ => ?_))
  · rw [subf_apply, rowMax_blk_apply, hr, hzv]
  · rw [exp_apply, subf_apply, rowMax_blk_apply, hr, hzv]

/-! ## The reference's array at an index -/

/-- The bias as one row, repeated down the 100000 rows, reads at `(i, k)` the bias at `k`. -/
theorem biasRows_apply (b : FVec Ideal S40 .f32) (h1 : S40.BroadcastsInDim S1x40 ![1])
    (h2 : S1x40.BroadcastsInDim S100000x40 ![0, 1]) (i : Fin 100000) (k : Fin 40) :
    broadcastInDim S100000x40 ![0, 1] h2 (broadcastInDim S1x40 ![1] h1 b) (ix2 i k) = b (ix1 k) := by
  refine (broadcastInDim_apply _ h2 _ (ix2 i k) (ix2 (0 : Fin 1) k) fun a => ?_).trans
    (broadcastInDim_apply _ h1 b (ix2 (0 : Fin 1) k) (ix1 k) fun a => ?_)
  · match a with
    | ⟨0, _⟩ => show 0 = if (1 : Nat) = 1 then 0 else i.val; rw [if_pos rfl]
    | ⟨1, _⟩ => show k.val = if (40 : Nat) = 1 then 0 else k.val; rw [if_neg (by decide)]
  · match a with
    | ⟨0, _⟩ => show k.val = if (40 : Nat) = 1 then 0 else k.val; rw [if_neg (by decide)]

/-- A per-row value viewed as a column reads, at `(i, u)`, the value of row `i`. -/
theorem column_apply {α : Type} (v : S100000.Idx → α) (h : S100000.BroadcastsInDim Cert.ReferenceIdeal.S100000x1 ![0])
    (i : Fin 100000) (u : Fin 1) :
    broadcastInDim Cert.ReferenceIdeal.S100000x1 ![0] h v (ix2 i u) = v (ix1 i) :=
  broadcastInDim_apply _ h v (ix2 i u) (ix1 i) fun a => by
    match a with
    | ⟨0, _⟩ => show i.val = if (100000 : Nat) = 1 then 0 else i.val; rw [if_neg (by decide)]

/-- A column spread across the 40 columns reads, at `(i, q)`, the column's entry of row `i`. -/
theorem columnSpread_apply {α : Type} (w : Cert.ReferenceIdeal.S100000x1.Idx → α)
    (h : Cert.ReferenceIdeal.S100000x1.BroadcastsInDim S100000x40 ![0, 1]) (i : Fin 100000) (q : Fin 40) :
    broadcastInDim S100000x40 ![0, 1] h w (ix2 i q) = w (ix2 i (0 : Fin 1)) :=
  broadcastInDim_apply _ h w (ix2 i q) (ix2 i (0 : Fin 1)) fun a => by
    match a with
    | ⟨0, _⟩ => show i.val = if (100000 : Nat) = 1 then 0 else i.val; rw [if_neg (by decide)]
    | ⟨1, _⟩ => show 0 = if (1 : Nat) = 1 then 0 else q.val; rw [if_pos rfl]

/-- The word of minus infinity is the least extended real. -/
theorem ofBits_negInf : Ideal.ofBits .f32 0xFF800000#32 = ⊥ := by simp [Ideal.ofBits, Ideal.ieee]

/-- The reference's row maximum (reduced from minus infinity, then once more against minus infinity) is the fold of
    `max` from minus infinity over the row. -/
theorem ref_rowMax_apply (z : FVec Ideal S100000x40 .f32) (h0 : S_.BroadcastsInDim S100000 ![])
    (h' : S100000x40.ReducesTo [1] S100000) (hu : 0 < S_.numel) (i : Fin 100000) :
    maximumf (broadcastInDim S100000 ![] h0 (constant (F := Ideal) S_ .f32 0xFF800000#32))
        (Host.reduce FloatOps.maximumf z (constant (F := Ideal) S_ .f32 0xFF800000#32) h' hu) (ix1 i)
      = rowMax fun k => z (ix2 i k) := by
  have hc : broadcastInDim S100000 ![] h0 (constant (F := Ideal) S_ .f32 0xFF800000#32) (ix1 i) = ⊥ :=
    (broadcastInDim_apply _ h0 _ (ix1 i) ix0 fun a => a.elim0).trans ofBits_negInf
  rw [maximumf_apply, hc, max_bot_left]
  have h : S100000x40.Reduces [1] S100000 := by decide
  refine (Host.reduce_eq_fold_single FloatOps.maximumf z _ h' h hu (ix1 i)).trans ?_
  unfold rowMax
  exact congrArg (fun f => (Finset.univ : Finset (Fin 40)).fold max (Ideal.ofBits .f32 0xFF800000#32) f)
    (funext fun k => congrArg z (Cert.LibColumn.lift_last_ix1 h i k))

/-- The reference's row sum from the zero word is the sum of the row's 40 entries. -/
theorem ref_rowSum_apply (e : FVec Ideal S100000x40 .f32) (h' : S100000x40.ReducesTo [1] S100000) (hu : 0 < S_.numel)
    (i : Fin 100000) :
    Host.reduceAdd e (constant (F := Ideal) S_ .f32 0x00000000#32) h' hu (ix1 i) = ∑ k : Fin 40, e (ix2 i k) := by
  have h : S100000x40.Reduces [1] S100000 := by decide
  simp only [Host.reduceAdd, Ideal.hostReduceAdd_def, constant_apply]
  rw [Ideal.hostReduceAdd_single h' h, Ideal.ofBits_zero_f32, zero_add]
  exact Finset.sum_congr rfl fun k _ => congrArg e (Cert.LibColumn.lift_last_ix1 h i k)

/-- The host's logarithm and exponential of an array, at an index. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- THE REFERENCE'S LAYER at `(i, q)`: the row log-softmax of the aggregate's row `i` plus the bias. -/
theorem ref_apply (a : FVec Ideal S100000x40 .f32) (b : FVec Ideal S40 .f32) (i : Fin 100000) (q : Fin 40) :
    Cert.Layers.biasLogSoftmax (F := Ideal) a b (ix2 i q) = rowLogSoftmax (fun k => a (ix2 i k) + b (ix1 k)) q := by
  unfold Cert.Layers.biasLogSoftmax Cert.Layers.logSoftmax
  generalize hz : Cert.Layers.logits (F := Ideal) a b = z
  have hzv : ∀ k : Fin 40, z (ix2 i k) = a (ix2 i k) + b (ix1 k) := fun k => by
    rw [← hz]; unfold Cert.Layers.logits; rw [addf_apply, biasRows_apply]
  have hr : (fun k : Fin 40 => z (ix2 i k)) = fun k => a (ix2 i k) + b (ix1 k) := funext hzv
  have hs : ∀ k : Fin 40, Cert.Layers.shifted z (ix2 i k) = z (ix2 i k) - rowMax fun k' => z (ix2 i k') := fun k => by
    unfold Cert.Layers.shifted Cert.Layers.rowMax
    rw [subf_apply, columnSpread_apply, column_apply, ref_rowMax_apply]
  rw [subf_apply, columnSpread_apply, hostLog_apply, column_apply, ref_rowSum_apply, hs]
  unfold rowLogSoftmax
  refine congrArg₂ (· - ·) ?_ (congrArg Ideal.log (Finset.sum_congr rfl fun k _ => ?_))
  · rw [hr, hzv]
  · rw [hostExp_apply, hs, hr, hzv]

/-! ## From the five row blocks to the array -/

theorem zero_offsets2 : (![0, 0] : Fin 2 → Nat) = fun _ => 0 := funext fun a => by fin_cases a <;> rfl
theorem zero_offsets1 : (![0] : Fin 1 → Nat) = fun _ => 0 := funext fun a => by fin_cases a <;> rfl

/-- The printed index maps over the grid: at point `t` the aggregate's block and the output's block are row block `t`
    (the one column block), and the bias's block is the whole bias. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- ONE ENTRY of a block. If the block `zb` holds rows `20000 n …` of the aggregate `a` and `bb` is the bias, the
    kernel's payload at `y` is the reference's layer at the array index `i` under `y`: a row lies inside one block, so
    the block's row is the array's row. -/
theorem entry_eq (a : FVec Ideal S100000x40 .f32) (b : FVec Ideal S40 .f32) (zb : FVec Ideal S20000x40 .f32)
    (bb : FVec Ideal S40 .f32) (n : Nat) (y : S20000x40.Idx) (i : S100000x40.Idx)
    (hi0 : (i 0).val = n * 20000 + (y 0).val) (hi1 : (i 1).val = (y 1).val)
    (hzb : ∀ (y' : S20000x40.Idx) (i' : S100000x40.Idx), (i' 0).val = n * 20000 + (y' 0).val → (i' 1).val = (y' 1).val →
      zb y' = a i')
    (hbb : bb = b) :
    (k3_pay1 (F := Ideal)) zb bb y = Cert.Layers.biasLogSoftmax (F := Ideal) a b i := by
  obtain ⟨p, q, rfl⟩ : ∃ (p : Fin 20000) (q : Fin 40), y = ix2 p q := ⟨y 0, y 1, eq_ix2 y⟩
  obtain ⟨r, q', rfl⟩ : ∃ (r : Fin 100000) (q' : Fin 40), i = ix2 r q' := ⟨i 0, i 1, eq_ix2 i⟩
  have hq : q' = q := Fin.ext hi1
  subst hq hbb
  rw [pay_apply, ref_apply]
  exact congrArg (fun f => rowLogSoftmax f q') (funext fun k => congrArg (· + bb (ix1 k)) (hzb (ix2 p k) (ix2 r k) hi0 rfl))

variable (V : (c : Dev nD) → (b : Ref sig .tc) → Buf (Elt Ideal) ((c : Thread nD τ).loc b))

/-- WHAT POINT `t` WRITES BACK is block `t` of the reference's layer of the two arrays the region reads. -/
theorem flushed_eq (c : Dev nD) (t : Fin cfg3.N) :
    (dat3 V c).flushed 2 t = ((cfg3.win 2).blk t).view.read (Elt Ideal)
      (Cert.Layers.biasLogSoftmax (F := Ideal) (V c main_v55) (V c main_arg6)) := by
  show (cfg3.win 2).cut (grid3.coords t) ((dat3 V c).after 2 t) = _
  rw [after3_2]
  unfold out3_2
  rw [View.canon_unit_zero zero_offsets2]
  simp only [View.ld_unit_zero (S := S20000x40) zero_offsets2, View.ld_unit_zero (S := S40) zero_offsets1]
  obtain ⟨e00, e01, e10, e20, e21⟩ := idx_facts t
  funext j
  refine entry_eq (V c main_v55) (V c main_arg6) (iblk3 V c 0 t) (iblk3 V c 1 t) t.val j _ ?_ ?_ ?_ ?_
  · show win3_2.index t (0 : Fin 2) * 20000 + 1 * (j 0).val = t.val * 20000 + (j 0).val
    rw [e20]; omega
  · show win3_2.index t (1 : Fin 2) * 40 + 1 * (j 1).val = (j 1).val
    rw [e21]; omega
  · intro y' i' h0 h1
    show V c main_v55 (((cfg3.win 0).blk t).view.emb y') = V c main_v55 i'
    refine congrArg (V c main_v55) (funext fun a => Fin.ext ?_)
    match a with
    | ⟨0, _⟩ => show win3_0.index t (0 : Fin 2) * 20000 + 1 * (y' 0).val = (i' 0).val; rw [e00, h0]; omega
    | ⟨1, _⟩ => show win3_0.index t (1 : Fin 2) * 40 + 1 * (y' 1).val = (i' 1).val; rw [e01, h1]; omega
  · funext y'
    show V c main_arg6 (((cfg3.win 1).blk t).view.emb y') = V c main_arg6 y'
    refine congrArg (V c main_arg6) (funext fun a => Fin.ext ?_)
    match a with
    | ⟨0, _⟩ => show win3_1.index t (0 : Fin 1) * 40 + 1 * (y' 0).val = (y' 0).val; rw [e10]; omega

/-- An index of the array is in point `t`'s block iff each coordinate is in the block's range on its axis. -/
theorem mem_blk (t : Fin cfg3.N) (i : S100000x40.Idx) :
    i ∈ ((cfg3.win 2).blk t).view.set ↔ ∀ a : Fin 2, win3_2.index t a * S20000x40.size a ≤ (i a).val
      ∧ (i a).val < win3_2.index t a * S20000x40.size a + S20000x40.size a := by
  show i ∈ ((View.whole main_v56).slice (win3_2.rect t)).set ↔ _
  rw [View.set_slice_whole, Rect.mem_set_unit]
  exact Iff.rfl

/-- Every index of the array lies in the block of the point its row falls to: row `r` in block `r / 20000`. -/
theorem cover (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  have ht : (i 0).val / 20000 < cfg3.N := by show (i 0).val / 20000 < grid3.N; rw [N_3]; omega
  obtain ⟨-, -, -, e20, e21⟩ := idx_facts ⟨(i 0).val / 20000, ht⟩
  refine ⟨⟨(i 0).val / 20000, ht⟩, flush3_2 _, ?_⟩
  rw [mem_blk]
  intro a
  match a with
  | ⟨0, _⟩ =>
    show win3_2.index ⟨(i 0).val / 20000, ht⟩ (0 : Fin 2) * 20000 ≤ (i 0).val
      ∧ (i 0).val < win3_2.index ⟨(i 0).val / 20000, ht⟩ (0 : Fin 2) * 20000 + 20000
    rw [e20]; show (i 0).val / 20000 * 20000 ≤ (i 0).val ∧ (i 0).val < (i 0).val / 20000 * 20000 + 20000; omega
  | ⟨1, _⟩ =>
    show win3_2.index ⟨(i 0).val / 20000, ht⟩ (1 : Fin 2) * 40 ≤ (i 1).val
      ∧ (i 1).val < win3_2.index ⟨(i 0).val / 20000, ht⟩ (1 : Fin 2) * 40 + 40
    rw [e21]; omega

/-- After the fourth call's five row blocks have been written back, its output array is the row-wise log-softmax of the aggregate plus the bias row, over the whole array (a row lies inside one block, so a block's row reductions are the array's). -/
theorem arr (c : Dev nD) :
    (dat3 V c).arrAt 2 cfg3.N = Cert.Layers.biasLogSoftmax (F := Ideal) (V c main_v55) (V c main_arg6) :=
  (dat3 V c).arrAt_eq_of_cover 2 _ (fun t _ => flushed_eq V c t) cover

end Cert.KernelIdeal.Region3

end
-- ==== Proof.KernelValue.lean ====
/-
  The idealized kernel's result array as the network's composite of the arguments.
  The run leaves the result buffer at the last boundary's contents, a fold through @main: host stretches (each
  `StableHlo.after` of its operations) and the four tiled calls (each leaving its output array at what its write-backs
  leave, every other buffer as entered). Read backwards: the last call's array is the log-softmax stage of the second
  aggregate; that aggregate is a host stretch's function of the third call's array, the edge indices and the edge
  coefficients; and so on down to the launch memory. The edge indices and coefficients are computed once, before the
  first call, and are only carried across the calls, none of which writes them.
-/
import proofs.«158233_j18399639896776_1_alg».proof.Proof.KernelRun
import proofs.«158233_j18399639896776_1_alg».proof.Proof.Graph
import proofs.«158233_j18399639896776_1_alg».proof.Proof.Region0
import proofs.«158233_j18399639896776_1_alg».proof.Proof.Region1
import proofs.«158233_j18399639896776_1_alg».proof.Proof.Region2
import proofs.«158233_j18399639896776_1_alg».proof.Proof.Region3

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

/-- A buffer that no operation of a host stretch writes keeps its contents across the stretch. -/
macro "stretch_keeps" : tactic => `(tactic| (
  refine StableHlo.after_of_forall_not_mem _ _ (List.forall_iff_forall_mem.mp ?_)
  simp only [hostOps0, hostOps0_1, hostOps0_2, hostOps1, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

section Stretches

variable {F : FTy → Type} [FloatOps F] (W : Valuation τ sig (Elt F))

/-! ## The stretches before the first call: the edge indices and the edge coefficients -/

/-- The three stretches before the first call, from contents `W`. -/
abbrev pre : Valuation τ sig (Elt F) :=
  StableHlo.after hostOps0_2 (StableHlo.after hostOps0_1 (StableHlo.after hostOps0 W))

theorem pre_src : pre W (Proc.devRef .tc main_v1) = Cert.Graph.srcIx (W (Proc.devRef .tc main_arg1)) := by
  dsimp only [pre, hostOps0, hostOps0_1, hostOps0_2]; after_results; rfl

theorem pre_tgt : pre W (Proc.devRef .tc main_v3) = Cert.Graph.tgtIx (W (Proc.devRef .tc main_arg1)) := by
  dsimp only [pre, hostOps0, hostOps0_1, hostOps0_2]; after_results; rfl

set_option maxHeartbeats 4000000 in
theorem pre_norm : pre W (Proc.devRef .tc main_v26)
    = Cert.Graph.edgeNorm (Cert.Graph.srcIx (W (Proc.devRef .tc main_arg1))) (Cert.Graph.tgtIx (W (Proc.devRef .tc main_arg1)))
        (W (Proc.devRef .tc main_arg2)) := by
  dsimp only [pre, hostOps0, hostOps0_1, hostOps0_2]; after_results_simp; rfl

/-- The argument arrays are written by none of the three stretches. -/
theorem pre_x : pre W (Proc.devRef .tc main_arg0) = W (Proc.devRef .tc main_arg0) :=
  calc pre W (Proc.devRef .tc main_arg0)
    _ = StableHlo.after hostOps0_1 (StableHlo.after hostOps0 W) (Proc.devRef .tc main_arg0) := by stretch_keeps
    _ = StableHlo.after hostOps0 W (Proc.devRef .tc main_arg0) := by stretch_keeps
    _ = W (Proc.devRef .tc main_arg0) := by stretch_keeps
theorem pre_w1 : pre W (Proc.devRef .tc main_arg3) = W (Proc.devRef .tc main_arg3) :=
  calc pre W (Proc.devRef .tc main_arg3)
    _ = StableHlo.after hostOps0_1 (StableHlo.after hostOps0 W) (Proc.devRef .tc main_arg3) := by stretch_keeps
    _ = StableHlo.after hostOps0 W (Proc.devRef .tc main_arg3) := by stretch_keeps
    _ = W (Proc.devRef .tc main_arg3) := by stretch_keeps
theorem pre_b1 : pre W (Proc.devRef .tc main_arg4) = W (Proc.devRef .tc main_arg4) :=
  calc pre W (Proc.devRef .tc main_arg4)
    _ = StableHlo.after hostOps0_1 (StableHlo.after hostOps0 W) (Proc.devRef .tc main_arg4) := by stretch_keeps
    _ = StableHlo.after hostOps0 W (Proc.devRef .tc main_arg4) := by stretch_keeps
    _ = W (Proc.devRef .tc main_arg4) := by stretch_keeps
theorem pre_w2 : pre W (Proc.devRef .tc main_arg5) = W (Proc.devRef .tc main_arg5) :=
  calc pre W (Proc.devRef .tc main_arg5)
    _ = StableHlo.after hostOps0_1 (StableHlo.after hostOps0 W) (Proc.devRef .tc main_arg5) := by stretch_keeps
    _ = StableHlo.after hostOps0 W (Proc.devRef .tc main_arg5) := by stretch_keeps
    _ = W (Proc.devRef .tc main_arg5) := by stretch_keeps
theorem pre_b2 : pre W (Proc.devRef .tc main_arg6) = W (Proc.devRef .tc main_arg6) :=
  calc pre W (Proc.devRef .tc main_arg6)
    _ = StableHlo.after hostOps0_1 (StableHlo.after hostOps0 W) (Proc.devRef .tc main_arg6) := by stretch_keeps
    _ = StableHlo.after hostOps0 W (Proc.devRef .tc main_arg6) := by stretch_keeps
    _ = W (Proc.devRef .tc main_arg6) := by stretch_keeps

/-! ## The stretch after the first call, and the one before the last: the two aggregates -/

theorem layer1_aggregate : StableHlo.after hostOps1 W (Proc.devRef .tc main_v40)
    = Cert.Graph.aggregate16 (W (Proc.devRef .tc main_v27)) (W (Proc.devRef .tc main_v1)) (W (Proc.devRef .tc main_v3))
        (W (Proc.devRef .tc main_v26)) := by
  dsimp only [hostOps1]; after_results_simp; rfl

theorem layer2_aggregate : StableHlo.after hostOps3 W (Proc.devRef .tc main_v55)
    = Cert.Graph.aggregate40 (W (Proc.devRef .tc main_v42)) (W (Proc.devRef .tc main_v1)) (W (Proc.devRef .tc main_v3))
        (W (Proc.devRef .tc main_v26)) := by
  dsimp only [hostOps3]; after_results_simp; rfl

end Stretches

/-! ## The fold, boundary by boundary -/

section Fold

variable (m : (ℓ : Loc nD τ sig) → Buf (Elt Ideal) ℓ) (ρ : Dev nD → PrngReg)

/-- The source nodes, the target nodes and the edge coefficients, of the launch memory. -/
abbrev srcOf (c : Dev nD) := Cert.Graph.srcIx (F := Ideal) (m ((c : Thread nD τ).loc main_arg1))
abbrev tgtOf (c : Dev nD) := Cert.Graph.tgtIx (F := Ideal) (m ((c : Thread nD τ).loc main_arg1))
abbrev normOf (c : Dev nD) := Cert.Graph.edgeNorm (F := Ideal) (srcOf m c) (tgtOf m c) (m ((c : Thread nD τ).loc main_arg2))

/-! ### At the first call's entry -/

theorem at3_src (c : Dev nD) : W3 m ρ c (Proc.devRef .tc main_v1) = srcOf m c := pre_src (W0 m ρ c)
theorem at3_tgt (c : Dev nD) : W3 m ρ c (Proc.devRef .tc main_v3) = tgtOf m c := pre_tgt (W0 m ρ c)
theorem at3_norm (c : Dev nD) : W3 m ρ c (Proc.devRef .tc main_v26) = normOf m c := pre_norm (W0 m ρ c)
theorem at3_x (c : Dev nD) : W3 m ρ c (Proc.devRef .tc main_arg0) = m ((c : Thread nD τ).loc main_arg0) := pre_x (W0 m ρ c)
theorem at3_w1 (c : Dev nD) : W3 m ρ c (Proc.devRef .tc main_arg3) = m ((c : Thread nD τ).loc main_arg3) := pre_w1 (W0 m ρ c)
theorem at3_b1 (c : Dev nD) : W3 m ρ c (Proc.devRef .tc main_arg4) = m ((c : Thread nD τ).loc main_arg4) := pre_b1 (W0 m ρ c)
theorem at3_w2 (c : Dev nD) : W3 m ρ c (Proc.devRef .tc main_arg5) = m ((c : Thread nD τ).loc main_arg5) := pre_w2 (W0 m ρ c)
theorem at3_b2 (c : Dev nD) : W3 m ρ c (Proc.devRef .tc main_arg6) = m ((c : Thread nD τ).loc main_arg6) := pre_b2 (W0 m ρ c)

/-! ### Carried across the first call (it writes none of them) -/

theorem at4_src (c : Dev nD) : W4 m ρ c (Proc.devRef .tc main_v1) = srcOf m c :=
  (W4_of_ne m ρ c main_v1 (by decide)).trans (at3_src m ρ c)
theorem at4_tgt (c : Dev nD) : W4 m ρ c (Proc.devRef .tc main_v3) = tgtOf m c :=
  (W4_of_ne m ρ c main_v3 (by decide)).trans (at3_tgt m ρ c)
theorem at4_norm (c : Dev nD) : W4 m ρ c (Proc.devRef .tc main_v26) = normOf m c :=
  (W4_of_ne m ρ c main_v26 (by decide)).trans (at3_norm m ρ c)
theorem at4_b1 (c : Dev nD) : W4 m ρ c (Proc.devRef .tc main_arg4) = m ((c : Thread nD τ).loc main_arg4) :=
  (W4_of_ne m ρ c main_arg4 (by decide)).trans (at3_b1 m ρ c)
theorem at4_w2 (c : Dev nD) : W4 m ρ c (Proc.devRef .tc main_arg5) = m ((c : Thread nD τ).loc main_arg5) :=
  (W4_of_ne m ρ c main_arg5 (by decide)).trans (at3_w2 m ρ c)
theorem at4_b2 (c : Dev nD) : W4 m ρ c (Proc.devRef .tc main_arg6) = m ((c : Thread nD τ).loc main_arg6) :=
  (W4_of_ne m ρ c main_arg6 (by decide)).trans (at3_b2 m ρ c)

/-! ### Carried across the stretch after the first call -/

theorem at5_src (c : Dev nD) : W5 m ρ c (Proc.devRef .tc main_v1) = srcOf m c :=
  (show W5 m ρ c (Proc.devRef .tc main_v1) = W4 m ρ c (Proc.devRef .tc main_v1) from by stretch_keeps).trans (at4_src m ρ c)
theorem at5_tgt (c : Dev nD) : W5 m ρ c (Proc.devRef .tc main_v3) = tgtOf m c :=
  (show W5 m ρ c (Proc.devRef .tc main_v3) = W4 m ρ c (Proc.devRef .tc main_v3) from by stretch_keeps).trans (at4_tgt m ρ c)
theorem at5_norm (c : Dev nD) : W5 m ρ c (Proc.devRef .tc main_v26) = normOf m c :=
  (show W5 m ρ c (Proc.devRef .tc main_v26) = W4 m ρ c (Proc.devRef .tc main_v26) from by stretch_keeps).trans (at4_norm m ρ c)
theorem at5_b1 (c : Dev nD) : W5 m ρ c (Proc.devRef .tc main_arg4) = m ((c : Thread nD τ).loc main_arg4) :=
  (show W5 m ρ c (Proc.devRef .tc main_arg4) = W4 m ρ c (Proc.devRef .tc main_arg4) from by stretch_keeps).trans (at4_b1 m ρ c)
theorem at5_w2 (c : Dev nD) : W5 m ρ c (Proc.devRef .tc main_arg5) = m ((c : Thread nD τ).loc main_arg5) :=
  (show W5 m ρ c (Proc.devRef .tc main_arg5) = W4 m ρ c (Proc.devRef .tc main_arg5) from by stretch_keeps).trans (at4_w2 m ρ c)
theorem at5_b2 (c : Dev nD) : W5 m ρ c (Proc.devRef .tc main_arg6) = m ((c : Thread nD τ).loc main_arg6) :=
  (show W5 m ρ c (Proc.devRef .tc main_arg6) = W4 m ρ c (Proc.devRef .tc main_arg6) from by stretch_keeps).trans (at4_b2 m ρ c)

/-! ### Carried across the second call -/

theorem at6_src (c : Dev nD) : W6 m ρ c (Proc.devRef .tc main_v1) = srcOf m c :=
  (W6_of_ne m ρ c main_v1 (by decide)).trans (at5_src m ρ c)
theorem at6_tgt (c : Dev nD) : W6 m ρ c (Proc.devRef .tc main_v3) = tgtOf m c :=
  (W6_of_ne m ρ c main_v3 (by decide)).trans (at5_tgt m ρ c)
theorem at6_norm (c : Dev nD) : W6 m ρ c (Proc.devRef .tc main_v26) = normOf m c :=
  (W6_of_ne m ρ c main_v26 (by decide)).trans (at5_norm m ρ c)
theorem at6_w2 (c : Dev nD) : W6 m ρ c (Proc.devRef .tc main_arg5) = m ((c : Thread nD τ).loc main_arg5) :=
  (W6_of_ne m ρ c main_arg5 (by decide)).trans (at5_w2 m ρ c)
theorem at6_b2 (c : Dev nD) : W6 m ρ c (Proc.devRef .tc main_arg6) = m ((c : Thread nD τ).loc main_arg6) :=
  (W6_of_ne m ρ c main_arg6 (by decide)).trans (at5_b2 m ρ c)

/-! ### Carried across the third call -/

theorem at7_src (c : Dev nD) : W7 m ρ c (Proc.devRef .tc main_v1) = srcOf m c :=
  (W7_of_ne m ρ c main_v1 (by decide)).trans (at6_src m ρ c)
theorem at7_tgt (c : Dev nD) : W7 m ρ c (Proc.devRef .tc main_v3) = tgtOf m c :=
  (W7_of_ne m ρ c main_v3 (by decide)).trans (at6_tgt m ρ c)
theorem at7_norm (c : Dev nD) : W7 m ρ c (Proc.devRef .tc main_v26) = normOf m c :=
  (W7_of_ne m ρ c main_v26 (by decide)).trans (at6_norm m ρ c)
theorem at7_b2 (c : Dev nD) : W7 m ρ c (Proc.devRef .tc main_arg6) = m ((c : Thread nD τ).loc main_arg6) :=
  (W7_of_ne m ρ c main_arg6 (by decide)).trans (at6_b2 m ρ c)

/-! ### Carried across the stretch before the last call -/

theorem at8_b2 (c : Dev nD) : W8 m ρ c (Proc.devRef .tc main_arg6) = m ((c : Thread nD τ).loc main_arg6) :=
  (show W8 m ρ c (Proc.devRef .tc main_arg6) = W7 m ρ c (Proc.devRef .tc main_arg6) from by stretch_keeps).trans (at7_b2 m ρ c)

/-! ### The four calls' arrays and the two aggregates -/

/-- After the first call: the features times the first weight. -/
theorem at4_h0 (c : Dev nD) : W4 m ρ c (Proc.devRef .tc main_v27)
    = Cert.Layers.dense1 (F := Ideal) (m ((c : Thread nD τ).loc main_arg0)) (m ((c : Thread nD τ).loc main_arg3)) := by
  refine (W4_arr m ρ c 2).trans ((Cert.KernelIdeal.Region0.arr (V3 m ρ) c).trans ?_)
  show Cert.Layers.dense1 (F := Ideal) (W3 m ρ c (Proc.devRef .tc main_arg0)) (W3 m ρ c (Proc.devRef .tc main_arg3)) = _
  rw [at3_x, at3_w1]

/-- The first aggregate. -/
theorem at5_agg (c : Dev nD) : W5 m ρ c (Proc.devRef .tc main_v40)
    = Cert.Graph.aggregate16 (Cert.Layers.dense1 (F := Ideal) (m ((c : Thread nD τ).loc main_arg0)) (m ((c : Thread nD τ).loc main_arg3)))
        (srcOf m c) (tgtOf m c) (normOf m c) := by
  refine (layer1_aggregate (W4 m ρ c)).trans ?_
  rw [at4_h0, at4_src, at4_tgt, at4_norm]

/-- After the second call: the hidden features. -/
theorem at6_h1 (c : Dev nD) : W6 m ρ c (Proc.devRef .tc main_v41)
    = Cert.Layers.biasRelu (F := Ideal)
        (Cert.Graph.aggregate16 (Cert.Layers.dense1 (F := Ideal) (m ((c : Thread nD τ).loc main_arg0)) (m ((c : Thread nD τ).loc main_arg3)))
          (srcOf m c) (tgtOf m c) (normOf m c))
        (m ((c : Thread nD τ).loc main_arg4)) := by
  refine (W6_arr m ρ c 2).trans ((Cert.KernelIdeal.Region1.arr (V5 m ρ) c).trans ?_)
  show Cert.Layers.biasRelu (F := Ideal) (W5 m ρ c (Proc.devRef .tc main_v40)) (W5 m ρ c (Proc.devRef .tc main_arg4)) = _
  rw [at5_agg, at5_b1]

/-- After the third call: the hidden features times the second weight. -/
theorem at7_h2 (c : Dev nD) : W7 m ρ c (Proc.devRef .tc main_v42)
    = Cert.Layers.dense2 (F := Ideal)
        (Cert.Layers.biasRelu (F := Ideal)
          (Cert.Graph.aggregate16 (Cert.Layers.dense1 (F := Ideal) (m ((c : Thread nD τ).loc main_arg0)) (m ((c : Thread nD τ).loc main_arg3)))
            (srcOf m c) (tgtOf m c) (normOf m c))
          (m ((c : Thread nD τ).loc main_arg4)))
        (m ((c : Thread nD τ).loc main_arg5)) := by
  refine (W7_arr m ρ c 2).trans ((Cert.KernelIdeal.Region2.arr (V6 m ρ) c).trans ?_)
  show Cert.Layers.dense2 (F := Ideal) (W6 m ρ c (Proc.devRef .tc main_v41)) (W6 m ρ c (Proc.devRef .tc main_arg5)) = _
  rw [at6_h1, at6_w2]

/-- The second aggregate. -/
theorem at8_agg (c : Dev nD) : W8 m ρ c (Proc.devRef .tc main_v55)
    = Cert.Graph.aggregate40
        (Cert.Layers.dense2 (F := Ideal)
          (Cert.Layers.biasRelu (F := Ideal)
            (Cert.Graph.aggregate16 (Cert.Layers.dense1 (F := Ideal) (m ((c : Thread nD τ).loc main_arg0)) (m ((c : Thread nD τ).loc main_arg3)))
              (srcOf m c) (tgtOf m c) (normOf m c))
            (m ((c : Thread nD τ).loc main_arg4)))
          (m ((c : Thread nD τ).loc main_arg5)))
        (srcOf m c) (tgtOf m c) (normOf m c) := by
  refine (layer2_aggregate (W7 m ρ c)).trans ?_
  rw [at7_h2, at7_src, at7_tgt, at7_norm]

/-- THE RESULT: the last boundary's contents of the result buffer are the network of the launch memory's arguments. -/
theorem result (c : Dev nD) : W9 m ρ c (Proc.devRef .tc main_v56)
    = Cert.Graph.gcn (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (W9_arr m ρ c 2).trans ((Cert.KernelIdeal.Region3.arr (V8 m ρ) c).trans ?_)
  show Cert.Layers.biasLogSoftmax (F := Ideal) (W8 m ρ c (Proc.devRef .tc main_v55)) (W8 m ρ c (Proc.devRef .tc main_arg6)) = _
  rw [at8_agg, at8_b2]
  rfl

end Fold

end Cert.KernelIdeal.Fold

end
-- ==== Proof.LibTypedRef.lean ====
/-
  Typed references. A host function's operations name their buffers through typed references: a buffer together with
  the fact that its type is the value's, the value's contents carried to the buffer's contents and back along that fact.
  Carried there and back, contents are unchanged, whatever the reference: the two transports are along a fact and its
  converse. (An inlined call leaves one such round trip around every operand of every operation of the callee.)
-/
import Idealize.ShloMosaic.Lib.StableHlo

namespace Cert.LibTypedRef

open Idealize.ShloMosaic Idealize.ShloMosaic.StableHlo

variable {sig : RefSig} {Val : EltTy → Type} {T : BufTy}

/-- Contents carried to a typed reference's buffer and back are the contents. -/
theorem ofBuf_toBuf (x : TRef sig T) (v : T.Contents Val) : x.ofBuf (x.toBuf v) = v := by
  obtain ⟨r, rfl, _, _⟩ := x
  rfl

/-- A buffer's contents carried to the value's type and back are the buffer's contents. -/
theorem toBuf_ofBuf (x : TRef sig T) (v : x.ref.ty.Contents Val) : x.toBuf (x.ofBuf v) = v := by
  obtain ⟨r, rfl, _, _⟩ := x
  rfl

end Cert.LibTypedRef
-- ==== Proof.RefValue.lean ====
/-
  The idealized reference's run with its result as the network's composite of the arguments.
  @main is one list of 126 host operations; every weakly fair execution ends with each buffer at the list's fold over the
  launch memory. The list is cut into five stretches — the edge coefficients, the first layer, the edge coefficients
  once more (the reference computes them per layer), the second layer, the log-softmax — and the result buffer is read
  back through them: each stretch's result is one named function (Graph.lean, Layers.lean) of buffers the earlier
  stretches wrote, and a buffer a stretch does not write is carried across it. The log-softmax is an inlined call:
  its operations reach their buffers through typed references, and the round trips those leave are dropped first
  (LibTypedRef.lean).
-/
import proofs.«158233_j18399639896776_1_alg».proof.Proof.RefRun
import proofs.«158233_j18399639896776_1_alg».proof.Proof.Graph
import proofs.«158233_j18399639896776_1_alg».proof.Proof.LibTypedRef
import Idealize.ShloMosaic.Lib.Pipeline.Frame

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.StableHlo

variable {F : FTy → Type} [FloatOps F]

/-! ## The list, cut -/

/-- Operations 1 … 36 of @main: the edge indices, the degrees and the edge coefficients. -/
abbrev opsNorm : List (HloOp τ sig (Elt F)) :=
  [ unary main_arg1 main_v0 ((extractStridedSlice S1x3300000 ![0, 0] · slices_S2x3300000_S1x3300000_0_0) : (⟨S2x3300000, .i32⟩ : BufTy).Contents (Elt F) → (⟨S1x3300000, .i32⟩ : BufTy).Contents (Elt F)),
    reshape main_v0 main_v1 rfl shapeCasts_S1x3300000_S3300000,
    unary main_arg1 main_v2 ((extractStridedSlice S1x3300000 ![1, 0] · slices_S2x3300000_S1x3300000_1_0) : (⟨S2x3300000, .i32⟩ : BufTy).Contents (Elt F) → (⟨S1x3300000, .i32⟩ : BufTy).Contents (Elt F)),
    reshape main_v2 main_v3 rfl shapeCasts_S1x3300000_S3300000,
    nullary main_cst (constant S_ .f32 0x00000000#32),
    unary main_cst main_v4 (broadcastInDim S100000 ![] bcast_S_S100000 : (⟨S_, .f32⟩ : BufTy).Contents (Elt F) → (⟨S100000, .f32⟩ : BufTy).Contents (Elt F)),
    unary main_v3 main_v5 (broadcastInDim S3300000x1 ![0] bcast_S3300000_S3300000x1_0 : (⟨S3300000, .i32⟩ : BufTy).Contents (Elt F) → (⟨S3300000x1, .i32⟩ : BufTy).Contents (Elt F)),
    ternary main_v4 main_v5 main_arg2 main_v6 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_0 (constant S_ .f32 0x00000000#32),
    unary main_cst_0 main_v7 (broadcastInDim S100000 ![] bcast_S_S100000 : (⟨S_, .f32⟩ : BufTy).Contents (Elt F) → (⟨S100000, .f32⟩ : BufTy).Contents (Elt F)),
    binary main_v6 main_v7 main_v8 (cmpf .ogt : (⟨S100000, .f32⟩ : BufTy).Contents (Elt F) → (⟨S100000, .f32⟩ : BufTy).Contents (Elt F) → (⟨S100000, .i1⟩ : BufTy).Contents (Elt F)),
    unary main_v6 main_v9 (Host.rsqrt : (⟨S100000, .f32⟩ : BufTy).Contents (Elt F) → (⟨S100000, .f32⟩ : BufTy).Contents (Elt F)),
    nullary main_cst_1 (constant S_ .f32 0x00000000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v8) (TRef.of (T := ⟨S100000, .f32⟩) main_v9) (TRef.of (T := ⟨S100000, .f32⟩) main_call0_v1) (TRef.of (T := ⟨S100000, .f32⟩) main_v10) select,
    nullary main_c (constantI S_ 32 0#32),
    unary main_c main_v11 (broadcastInDim S3300000 ![] bcast_S_S3300000 : (⟨S_, .i32⟩ : BufTy).Contents (Elt F) → (⟨S3300000, .i32⟩ : BufTy).Contents (Elt F)),
    binary main_v1 main_v11 main_v12 (cmpi .slt : (⟨S3300000, .i32⟩ : BufTy).Contents (Elt F) → (⟨S3300000, .i32⟩ : BufTy).Contents (Elt F) → (⟨S3300000, .i1⟩ : BufTy).Contents (Elt F)),
    nullary main_c_2 (constantI S_ 32 100000#32),
    unary main_c_2 main_v13 (broadcastInDim S3300000 ![] bcast_S_S3300000 : (⟨S_, .i32⟩ : BufTy).Contents (Elt F) → (⟨S3300000, .i32⟩ : BufTy).Contents (Elt F)),
    binary main_v1 main_v13 main_v14 (addi : (⟨S3300000, .i32⟩ : BufTy).Contents (Elt F) → (⟨S3300000, .i32⟩ : BufTy).Contents (Elt F) → (⟨S3300000, .i32⟩ : BufTy).Contents (Elt F)),
    ternary main_v12 main_v14 main_v1 main_v15 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v15 main_v16 (broadcastInDim S3300000x1 ![0] bcast_S3300000_S3300000x1_0 : (⟨S3300000, .i32⟩ : BufTy).Contents (Elt F) → (⟨S3300000x1, .i32⟩ : BufTy).Contents (Elt F)),
    binary main_v10 main_v16 main_v17 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v17 main_arg2 main_v18 (mulf : (⟨S3300000, .f32⟩ : BufTy).Contents (Elt F) → (⟨S3300000, .f32⟩ : BufTy).Contents (Elt F) → (⟨S3300000, .f32⟩ : BufTy).Contents (Elt F)),
    nullary main_c_3 (constantI S_ 32 0#32),
    unary main_c_3 main_v19 (broadcastInDim S3300000 ![] bcast_S_S3300000 : (⟨S_, .i32⟩ : BufTy).Contents (Elt F) → (⟨S3300000, .i32⟩ : BufTy).Contents (Elt F)),
    binary main_v3 main_v19 main_v20 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v21 (broadcastInDim S3300000 ![] bcast_S_S3300000 : (⟨S_, .i32⟩ : BufTy).Contents (Elt F) → (⟨S3300000, .i32⟩ : BufTy).Contents (Elt F)),
    binary main_v3 main_v21 main_v22 (addi : (⟨S3300000, .i32⟩ : BufTy).Contents (Elt F) → (⟨S3300000, .i32⟩ : BufTy).Contents (Elt F) → (⟨S3300000, .i32⟩ : BufTy).Contents (Elt F)),
    ternary main_v20 main_v22 main_v3 main_v23 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v23 main_v24 (broadcastInDim S3300000x1 ![0] bcast_S3300000_S3300000x1_0 : (⟨S3300000, .i32⟩ : BufTy).Contents (Elt F) → (⟨S3300000x1, .i32⟩ : BufTy).Contents (Elt F)),
    binary main_v10 main_v24 main_v25 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v18 main_v25 main_v26 (mulf : (⟨S3300000, .f32⟩ : BufTy).Contents (Elt F) → (⟨S3300000, .f32⟩ : BufTy).Contents (Elt F) → (⟨S3300000, .f32⟩ : BufTy).Contents (Elt F)) ]

/-- Operations 37 … 59 of @main: the first layer: product, aggregate, bias, relu. -/
abbrev opsLayer1 : List (HloOp τ sig (Elt F)) :=
  [ binary main_arg0 main_arg3 main_v27 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_c_5 (constantI S_ 32 0#32),
    unary main_c_5 main_v28 (broadcastInDim S3300000 ![] bcast_S_S3300000 : (⟨S_, .i32⟩ : BufTy).Contents (Elt F) → (⟨S3300000, .i32⟩ : BufTy).Contents (Elt F)),
    binary main_v1 main_v28 main_v29 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v30 (broadcastInDim S3300000 ![] bcast_S_S3300000 : (⟨S_, .i32⟩ : BufTy).Contents (Elt F) → (⟨S3300000, .i32⟩ : BufTy).Contents (Elt F)),
    binary main_v1 main_v30 main_v31 (addi : (⟨S3300000, .i32⟩ : BufTy).Contents (Elt F) → (⟨S3300000, .i32⟩ : BufTy).Contents (Elt F) → (⟨S3300000, .i32⟩ : BufTy).Contents (Elt F)),
    ternary main_v29 main_v31 main_v1 main_v32 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v32 main_v33 (broadcastInDim S3300000x1 ![0] bcast_S3300000_S3300000x1_0 : (⟨S3300000, .i32⟩ : BufTy).Contents (Elt F) → (⟨S3300000x1, .i32⟩ : BufTy).Contents (Elt F)),
    binary main_v27 main_v33 main_v34 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v26 main_v35 (broadcastInDim S3300000x1 ![0] bcast_S3300000_S3300000x1_0 : (⟨S3300000, .f32⟩ : BufTy).Contents (Elt F) → (⟨S3300000x1, .f32⟩ : BufTy).Contents (Elt F)),
    unary main_v35 main_v36 (broadcastInDim S3300000x16 ![0, 1] bcast_S3300000x1_S3300000x16_0_1 : (⟨S3300000x1, .f32⟩ : BufTy).Contents (Elt F) → (⟨S3300000x16, .f32⟩ : BufTy).Contents (Elt F)),
    binary main_v34 main_v36 main_v37 (mulf : (⟨S3300000x16, .f32⟩ : BufTy).Contents (Elt F) → (⟨S3300000x16, .f32⟩ : BufTy).Contents (Elt F) → (⟨S3300000x16, .f32⟩ : BufTy).Contents (Elt F)),
    nullary main_cst_7 (constant S_ .f32 0x00000000#32),
    unary main_cst_7 main_v38 (broadcastInDim S100000x16 ![] bcast_S_S100000x16 : (⟨S_, .f32⟩ : BufTy).Contents (Elt F) → (⟨S100000x16, .f32⟩ : BufTy).Contents (Elt F)),
    unary main_v3 main_v39 (broadcastInDim S3300000x1 ![0] bcast_S3300000_S3300000x1_0 : (⟨S3300000, .i32⟩ : BufTy).Contents (Elt F) → (⟨S3300000x1, .i32⟩ : BufTy).Contents (Elt F)),
    ternary main_v38 main_v39 main_v37 main_v40 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg4 main_v41 (broadcastInDim S1x16 ![1] bcast_S16_S1x16_1 : (⟨S16, .f32⟩ : BufTy).Contents (Elt F) → (⟨S1x16, .f32⟩ : BufTy).Contents (Elt F)),
    unary main_v41 main_v42 (broadcastInDim S100000x16 ![0, 1] bcast_S1x16_S100000x16_0_1 : (⟨S1x16, .f32⟩ : BufTy).Contents (Elt F) → (⟨S100000x16, .f32⟩ : BufTy).Contents (Elt F)),
    binary main_v40 main_v42 main_v43 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v43) (TRef.of (T := ⟨S100000x16, .f32⟩) main_call1_v0) (TRef.of (T := ⟨S100000x16, .f32⟩) main_v44) maximumf ]

/-- Operations 60 … 91 of @main: the degrees and the edge coefficients once more. -/
abbrev opsNorm2 : List (HloOp τ sig (Elt F)) :=
  [ nullary main_cst_8 (constant S_ .f32 0x00000000#32),
    unary main_cst_8 main_v45 (broadcastInDim S100000 ![] bcast_S_S100000 : (⟨S_, .f32⟩ : BufTy).Contents (Elt F) → (⟨S100000, .f32⟩ : BufTy).Contents (Elt F)),
    unary main_v3 main_v46 (broadcastInDim S3300000x1 ![0] bcast_S3300000_S3300000x1_0 : (⟨S3300000, .i32⟩ : BufTy).Contents (Elt F) → (⟨S3300000x1, .i32⟩ : BufTy).Contents (Elt F)),
    ternary main_v45 main_v46 main_arg2 main_v47 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_9 (constant S_ .f32 0x00000000#32),
    unary main_cst_9 main_v48 (broadcastInDim S100000 ![] bcast_S_S100000 : (⟨S_, .f32⟩ : BufTy).Contents (Elt F) → (⟨S100000, .f32⟩ : BufTy).Contents (Elt F)),
    binary main_v47 main_v48 main_v49 (cmpf .ogt : (⟨S100000, .f32⟩ : BufTy).Contents (Elt F) → (⟨S100000, .f32⟩ : BufTy).Contents (Elt F) → (⟨S100000, .i1⟩ : BufTy).Contents (Elt F)),
    unary main_v47 main_v50 (Host.rsqrt : (⟨S100000, .f32⟩ : BufTy).Contents (Elt F) → (⟨S100000, .f32⟩ : BufTy).Contents (Elt F)),
    nullary main_cst_10 (constant S_ .f32 0x00000000#32),
    TRef.unary (TRef.of (T := ⟨S_, .f32⟩) main_cst_10) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v49) (TRef.of (T := ⟨S100000, .f32⟩) main_v50) (TRef.of (T := ⟨S100000, .f32⟩) main_call2_v1) (TRef.of (T := ⟨S100000, .f32⟩) main_v51) select,
    nullary main_c_11 (constantI S_ 32 0#32),
    unary main_c_11 main_v52 (broadcastInDim S3300000 ![] bcast_S_S3300000 : (⟨S_, .i32⟩ : BufTy).Contents (Elt F) → (⟨S3300000, .i32⟩ : BufTy).Contents (Elt F)),
    binary main_v1 main_v52 main_v53 (cmpi .slt : (⟨S3300000, .i32⟩ : BufTy).Contents (Elt F) → (⟨S3300000, .i32⟩ : BufTy).Contents (Elt F) → (⟨S3300000, .i1⟩ : BufTy).Contents (Elt F)),
    nullary main_c_12 (constantI S_ 32 100000#32),
    unary main_c_12 main_v54 (broadcastInDim S3300000 ![] bcast_S_S3300000 : (⟨S_, .i32⟩ : BufTy).Contents (Elt F) → (⟨S3300000, .i32⟩ : BufTy).Contents (Elt F)),
    binary main_v1 main_v54 main_v55 (addi : (⟨S3300000, .i32⟩ : BufTy).Contents (Elt F) → (⟨S3300000, .i32⟩ : BufTy).Contents (Elt F) → (⟨S3300000, .i32⟩ : BufTy).Contents (Elt F)),
    ternary main_v53 main_v55 main_v1 main_v56 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v56 main_v57 (broadcastInDim S3300000x1 ![0] bcast_S3300000_S3300000x1_0 : (⟨S3300000, .i32⟩ : BufTy).Contents (Elt F) → (⟨S3300000x1, .i32⟩ : BufTy).Contents (Elt F)),
    binary main_v51 main_v57 main_v58 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v58 main_arg2 main_v59 (mulf : (⟨S3300000, .f32⟩ : BufTy).Contents (Elt F) → (⟨S3300000, .f32⟩ : BufTy).Contents (Elt F) → (⟨S3300000, .f32⟩ : BufTy).Contents (Elt F)),
    nullary main_c_13 (constantI S_ 32 0#32),
    unary main_c_13 main_v60 (broadcastInDim S3300000 ![] bcast_S_S3300000 : (⟨S_, .i32⟩ : BufTy).Contents (Elt F) → (⟨S3300000, .i32⟩ : BufTy).Contents (Elt F)),
    binary main_v3 main_v60 main_v61 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v62 (broadcastInDim S3300000 ![] bcast_S_S3300000 : (⟨S_, .i32⟩ : BufTy).Contents (Elt F) → (⟨S3300000, .i32⟩ : BufTy).Contents (Elt F)),
    binary main_v3 main_v62 main_v63 (addi : (⟨S3300000, .i32⟩ : BufTy).Contents (Elt F) → (⟨S3300000, .i32⟩ : BufTy).Contents (Elt F) → (⟨S3300000, .i32⟩ : BufTy).Contents (Elt F)),
    ternary main_v61 main_v63 main_v3 main_v64 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v64 main_v65 (broadcastInDim S3300000x1 ![0] bcast_S3300000_S3300000x1_0 : (⟨S3300000, .i32⟩ : BufTy).Contents (Elt F) → (⟨S3300000x1, .i32⟩ : BufTy).Contents (Elt F)),
    binary main_v51 main_v65 main_v66 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v59 main_v66 main_v67 (mulf : (⟨S3300000, .f32⟩ : BufTy).Contents (Elt F) → (⟨S3300000, .f32⟩ : BufTy).Contents (Elt F) → (⟨S3300000, .f32⟩ : BufTy).Contents (Elt F)) ]

/-- Operations 92 … 111 of @main: the second layer: product, aggregate, bias. -/
abbrev opsLayer2 : List (HloOp τ sig (Elt F)) :=
  [ binary main_v44 main_arg5 main_v68 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    nullary main_c_15 (constantI S_ 32 0#32),
    unary main_c_15 main_v69 (broadcastInDim S3300000 ![] bcast_S_S3300000 : (⟨S_, .i32⟩ : BufTy).Contents (Elt F) → (⟨S3300000, .i32⟩ : BufTy).Contents (Elt F)),
    binary main_v1 main_v69 main_v70 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v71 (broadcastInDim S3300000 ![] bcast_S_S3300000 : (⟨S_, .i32⟩ : BufTy).Contents (Elt F) → (⟨S3300000, .i32⟩ : BufTy).Contents (Elt F)),
    binary main_v1 main_v71 main_v72 (addi : (⟨S3300000, .i32⟩ : BufTy).Contents (Elt F) → (⟨S3300000, .i32⟩ : BufTy).Contents (Elt F) → (⟨S3300000, .i32⟩ : BufTy).Contents (Elt F)),
    ternary main_v70 main_v72 main_v1 main_v73 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v73 main_v74 (broadcastInDim S3300000x1 ![0] bcast_S3300000_S3300000x1_0 : (⟨S3300000, .i32⟩ : BufTy).Contents (Elt F) → (⟨S3300000x1, .i32⟩ : BufTy).Contents (Elt F)),
    binary main_v68 main_v74 main_v75 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v67 main_v76 (broadcastInDim S3300000x1 ![0] bcast_S3300000_S3300000x1_0 : (⟨S3300000, .f32⟩ : BufTy).Contents (Elt F) → (⟨S3300000x1, .f32⟩ : BufTy).Contents (Elt F)),
    unary main_v76 main_v77 (broadcastInDim S3300000x40 ![0, 1] bcast_S3300000x1_S3300000x40_0_1 : (⟨S3300000x1, .f32⟩ : BufTy).Contents (Elt F) → (⟨S3300000x40, .f32⟩ : BufTy).Contents (Elt F)),
    binary main_v75 main_v77 main_v78 (mulf : (⟨S3300000x40, .f32⟩ : BufTy).Contents (Elt F) → (⟨S3300000x40, .f32⟩ : BufTy).Contents (Elt F) → (⟨S3300000x40, .f32⟩ : BufTy).Contents (Elt F)),
    nullary main_cst_17 (constant S_ .f32 0x00000000#32),
    unary main_cst_17 main_v79 (broadcastInDim S100000x40 ![] bcast_S_S100000x40 : (⟨S_, .f32⟩ : BufTy).Contents (Elt F) → (⟨S100000x40, .f32⟩ : BufTy).Contents (Elt F)),
    unary main_v3 main_v80 (broadcastInDim S3300000x1 ![0] bcast_S3300000_S3300000x1_0 : (⟨S3300000, .i32⟩ : BufTy).Contents (Elt F) → (⟨S3300000x1, .i32⟩ : BufTy).Contents (Elt F)),
    ternary main_v79 main_v80 main_v78 main_v81 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg6 main_v82 (broadcastInDim S1x40 ![1] bcast_S40_S1x40_1 : (⟨S40, .f32⟩ : BufTy).Contents (Elt F) → (⟨S1x40, .f32⟩ : BufTy).Contents (Elt F)),
    unary main_v82 main_v83 (broadcastInDim S100000x40 ![0, 1] bcast_S1x40_S100000x40_0_1 : (⟨S1x40, .f32⟩ : BufTy).Contents (Elt F) → (⟨S100000x40, .f32⟩ : BufTy).Contents (Elt F)),
    binary main_v81 main_v83 main_v84 (addf : (⟨S100000x40, .f32⟩ : BufTy).Contents (Elt F) → (⟨S100000x40, .f32⟩ : BufTy).Contents (Elt F) → (⟨S100000x40, .f32⟩ : BufTy).Contents (Elt F)) ]

/-- Operations 112 … 126 of @main: the row-wise log-softmax. -/
abbrev opsSoftmax : List (HloOp τ sig (Elt F)) :=
  [ TRef.nullary (TRef.of (T := ⟨S_, .f32⟩) main_call3_cst) (constant S_ .f32 0xFF800000#32),
    TRef.binary (TRef.of (T := ⟨S100000x40, .f32⟩) main_v84) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v84) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v85) subf ]

/-- The five stretches, in order, are the whole list. -/
theorem ops_cut : (Cert.ReferenceIdeal.ValueP.ops : List (HloOp τ sig (Elt F)))
    = opsNorm ++ (opsLayer1 ++ (opsNorm2 ++ (opsLayer2 ++ opsSoftmax))) := rfl

/-- A buffer that no operation of a stretch writes keeps its contents across the stretch. -/
macro "stretch_keeps" : tactic => `(tactic| (
  refine StableHlo.after_of_forall_not_mem _ _ (List.forall_iff_forall_mem.mp ?_)
  simp only [opsNorm, opsLayer1, opsNorm2, opsLayer2, opsSoftmax, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

section Stretches

variable (W : Valuation τ sig (Elt F))

/-! ## What each stretch writes, of the contents `W` it starts from -/

theorem norm_src : StableHlo.after opsNorm W (Proc.devRef .tc main_v1) = Cert.Graph.srcIx (W (Proc.devRef .tc main_arg1)) := by
  dsimp only [opsNorm]; after_results; rfl

theorem norm_tgt : StableHlo.after opsNorm W (Proc.devRef .tc main_v3) = Cert.Graph.tgtIx (W (Proc.devRef .tc main_arg1)) := by
  dsimp only [opsNorm]; after_results; rfl

set_option maxHeartbeats 4000000 in
theorem norm_coeff : StableHlo.after opsNorm W (Proc.devRef .tc main_v26)
    = Cert.Graph.edgeNorm (Cert.Graph.srcIx (W (Proc.devRef .tc main_arg1))) (Cert.Graph.tgtIx (W (Proc.devRef .tc main_arg1))) (W (Proc.devRef .tc main_arg2)) := by
  dsimp only [opsNorm]; after_results_simp; rfl

set_option maxHeartbeats 4000000 in
theorem layer1_hidden : StableHlo.after opsLayer1 W (Proc.devRef .tc main_v44)
    = Cert.Layers.biasRelu
        (Cert.Graph.aggregate16 (Cert.Layers.dense1 (W (Proc.devRef .tc main_arg0)) (W (Proc.devRef .tc main_arg3))) (W (Proc.devRef .tc main_v1)) (W (Proc.devRef .tc main_v3)) (W (Proc.devRef .tc main_v26)))
        (W (Proc.devRef .tc main_arg4)) := by
  dsimp only [opsLayer1]; after_results_simp; rfl

set_option maxHeartbeats 4000000 in
theorem norm2_coeff : StableHlo.after opsNorm2 W (Proc.devRef .tc main_v67)
    = Cert.Graph.edgeNorm (W (Proc.devRef .tc main_v1)) (W (Proc.devRef .tc main_v3)) (W (Proc.devRef .tc main_arg2)) := by
  dsimp only [opsNorm2]; after_results_simp; rfl

set_option maxHeartbeats 4000000 in
theorem layer2_logits : StableHlo.after opsLayer2 W (Proc.devRef .tc main_v84)
    = Cert.Layers.logits
        (Cert.Graph.aggregate40 (Cert.Layers.dense2 (W (Proc.devRef .tc main_v44)) (W (Proc.devRef .tc main_arg5))) (W (Proc.devRef .tc main_v1)) (W (Proc.devRef .tc main_v3)) (W (Proc.devRef .tc main_v67)))
        (W (Proc.devRef .tc main_arg6)) := by
  dsimp only [opsLayer2]; after_results_simp; rfl

set_option maxHeartbeats 4000000 in
theorem softmax_result : StableHlo.after opsSoftmax W (Proc.devRef .tc main_v85) = Cert.Layers.logSoftmax (W (Proc.devRef .tc main_v84)) := by
  dsimp only [opsSoftmax]; after_results_simp
  simp only [Cert.LibTypedRef.ofBuf_toBuf]
  rfl

/-! ## What each stretch carries -/

theorem norm_keeps_arg0 : StableHlo.after opsNorm W (Proc.devRef .tc main_arg0) = W (Proc.devRef .tc main_arg0) := by stretch_keeps
theorem norm_keeps_arg1 : StableHlo.after opsNorm W (Proc.devRef .tc main_arg1) = W (Proc.devRef .tc main_arg1) := by stretch_keeps
theorem norm_keeps_arg2 : StableHlo.after opsNorm W (Proc.devRef .tc main_arg2) = W (Proc.devRef .tc main_arg2) := by stretch_keeps
theorem norm_keeps_arg3 : StableHlo.after opsNorm W (Proc.devRef .tc main_arg3) = W (Proc.devRef .tc main_arg3) := by stretch_keeps
theorem norm_keeps_arg4 : StableHlo.after opsNorm W (Proc.devRef .tc main_arg4) = W (Proc.devRef .tc main_arg4) := by stretch_keeps
theorem norm_keeps_arg5 : StableHlo.after opsNorm W (Proc.devRef .tc main_arg5) = W (Proc.devRef .tc main_arg5) := by stretch_keeps
theorem norm_keeps_arg6 : StableHlo.after opsNorm W (Proc.devRef .tc main_arg6) = W (Proc.devRef .tc main_arg6) := by stretch_keeps
theorem layer1_keeps_arg0 : StableHlo.after opsLayer1 W (Proc.devRef .tc main_arg0) = W (Proc.devRef .tc main_arg0) := by stretch_keeps
theorem layer1_keeps_arg1 : StableHlo.after opsLayer1 W (Proc.devRef .tc main_arg1) = W (Proc.devRef .tc main_arg1) := by stretch_keeps
theorem layer1_keeps_arg2 : StableHlo.after opsLayer1 W (Proc.devRef .tc main_arg2) = W (Proc.devRef .tc main_arg2) := by stretch_keeps
theorem layer1_keeps_arg3 : StableHlo.after opsLayer1 W (Proc.devRef .tc main_arg3) = W (Proc.devRef .tc main_arg3) := by stretch_keeps
theorem layer1_keeps_arg4 : StableHlo.after opsLayer1 W (Proc.devRef .tc main_arg4) = W (Proc.devRef .tc main_arg4) := by stretch_keeps
theorem layer1_keeps_arg5 : StableHlo.after opsLayer1 W (Proc.devRef .tc main_arg5) = W (Proc.devRef .tc main_arg5) := by stretch_keeps
theorem layer1_keeps_arg6 : StableHlo.after opsLayer1 W (Proc.devRef .tc main_arg6) = W (Proc.devRef .tc main_arg6) := by stretch_keeps
theorem layer1_keeps_v1 : StableHlo.after opsLayer1 W (Proc.devRef .tc main_v1) = W (Proc.devRef .tc main_v1) := by stretch_keeps
theorem layer1_keeps_v3 : StableHlo.after opsLayer1 W (Proc.devRef .tc main_v3) = W (Proc.devRef .tc main_v3) := by stretch_keeps
theorem norm2_keeps_arg0 : StableHlo.after opsNorm2 W (Proc.devRef .tc main_arg0) = W (Proc.devRef .tc main_arg0) := by stretch_keeps
theorem norm2_keeps_arg1 : StableHlo.after opsNorm2 W (Proc.devRef .tc main_arg1) = W (Proc.devRef .tc main_arg1) := by stretch_keeps
theorem norm2_keeps_arg2 : StableHlo.after opsNorm2 W (Proc.devRef .tc main_arg2) = W (Proc.devRef .tc main_arg2) := by stretch_keeps
theorem norm2_keeps_arg3 : StableHlo.after opsNorm2 W (Proc.devRef .tc main_arg3) = W (Proc.devRef .tc main_arg3) := by stretch_keeps
theorem norm2_keeps_arg4 : StableHlo.after opsNorm2 W (Proc.devRef .tc main_arg4) = W (Proc.devRef .tc main_arg4) := by stretch_keeps
theorem norm2_keeps_arg5 : StableHlo.after opsNorm2 W (Proc.devRef .tc main_arg5) = W (Proc.devRef .tc main_arg5) := by stretch_keeps
theorem norm2_keeps_arg6 : StableHlo.after opsNorm2 W (Proc.devRef .tc main_arg6) = W (Proc.devRef .tc main_arg6) := by stretch_keeps
theorem norm2_keeps_v1 : StableHlo.after opsNorm2 W (Proc.devRef .tc main_v1) = W (Proc.devRef .tc main_v1) := by stretch_keeps
theorem norm2_keeps_v3 : StableHlo.after opsNorm2 W (Proc.devRef .tc main_v3) = W (Proc.devRef .tc main_v3) := by stretch_keeps
theorem norm2_keeps_v44 : StableHlo.after opsNorm2 W (Proc.devRef .tc main_v44) = W (Proc.devRef .tc main_v44) := by stretch_keeps
theorem layer2_keeps_arg0 : StableHlo.after opsLayer2 W (Proc.devRef .tc main_arg0) = W (Proc.devRef .tc main_arg0) := by stretch_keeps
theorem layer2_keeps_arg1 : StableHlo.after opsLayer2 W (Proc.devRef .tc main_arg1) = W (Proc.devRef .tc main_arg1) := by stretch_keeps
theorem layer2_keeps_arg2 : StableHlo.after opsLayer2 W (Proc.devRef .tc main_arg2) = W (Proc.devRef .tc main_arg2) := by stretch_keeps
theorem layer2_keeps_arg3 : StableHlo.after opsLayer2 W (Proc.devRef .tc main_arg3) = W (Proc.devRef .tc main_arg3) := by stretch_keeps
theorem layer2_keeps_arg4 : StableHlo.after opsLayer2 W (Proc.devRef .tc main_arg4) = W (Proc.devRef .tc main_arg4) := by stretch_keeps
theorem layer2_keeps_arg5 : StableHlo.after opsLayer2 W (Proc.devRef .tc main_arg5) = W (Proc.devRef .tc main_arg5) := by stretch_keeps
theorem layer2_keeps_arg6 : StableHlo.after opsLayer2 W (Proc.devRef .tc main_arg6) = W (Proc.devRef .tc main_arg6) := by stretch_keeps
theorem softmax_keeps_arg0 : StableHlo.after opsSoftmax W (Proc.devRef .tc main_arg0) = W (Proc.devRef .tc main_arg0) := by stretch_keeps
theorem softmax_keeps_arg1 : StableHlo.after opsSoftmax W (Proc.devRef .tc main_arg1) = W (Proc.devRef .tc main_arg1) := by stretch_keeps
theorem softmax_keeps_arg2 : StableHlo.after opsSoftmax W (Proc.devRef .tc main_arg2) = W (Proc.devRef .tc main_arg2) := by stretch_keeps
theorem softmax_keeps_arg3 : StableHlo.after opsSoftmax W (Proc.devRef .tc main_arg3) = W (Proc.devRef .tc main_arg3) := by stretch_keeps
theorem softmax_keeps_arg4 : StableHlo.after opsSoftmax W (Proc.devRef .tc main_arg4) = W (Proc.devRef .tc main_arg4) := by stretch_keeps
theorem softmax_keeps_arg5 : StableHlo.after opsSoftmax W (Proc.devRef .tc main_arg5) = W (Proc.devRef .tc main_arg5) := by stretch_keeps
theorem softmax_keeps_arg6 : StableHlo.after opsSoftmax W (Proc.devRef .tc main_arg6) = W (Proc.devRef .tc main_arg6) := by stretch_keeps

end Stretches

/-! ## The result buffer after the whole list -/

/-- The fold of the whole list at the result buffer: the network of the contents' arguments. -/
theorem after_ops_result (W : Valuation τ sig (Elt F)) :
    StableHlo.after Cert.ReferenceIdeal.ValueP.ops W (Proc.devRef .tc main_v85)
      = Cert.Graph.gcn (W (Proc.devRef .tc main_arg0)) (W (Proc.devRef .tc main_arg1)) (W (Proc.devRef .tc main_arg2)) (W (Proc.devRef .tc main_arg3))
          (W (Proc.devRef .tc main_arg4)) (W (Proc.devRef .tc main_arg5)) (W (Proc.devRef .tc main_arg6)) := by
  rw [ops_cut, StableHlo.after_append, StableHlo.after_append, StableHlo.after_append, StableHlo.after_append]
  rw [softmax_result, layer2_logits]
  rw [norm2_coeff, norm2_keeps_v44, norm2_keeps_v1, norm2_keeps_v3, norm2_keeps_arg5, norm2_keeps_arg6]
  rw [layer1_hidden, layer1_keeps_v1, layer1_keeps_v3, layer1_keeps_arg2, layer1_keeps_arg5, layer1_keeps_arg6]
  rw [norm_coeff, norm_src, norm_tgt, norm_keeps_arg0, norm_keeps_arg2, norm_keeps_arg3, norm_keeps_arg4, norm_keeps_arg5, norm_keeps_arg6]
  rfl

/-- The argument buffers are written by no operation of the list. -/
theorem after_ops_arg0 (W : Valuation τ sig (Elt F)) :
    StableHlo.after Cert.ReferenceIdeal.ValueP.ops W (Proc.devRef .tc main_arg0) = W (Proc.devRef .tc main_arg0) := by
  rw [ops_cut, StableHlo.after_append, StableHlo.after_append, StableHlo.after_append, StableHlo.after_append,
    softmax_keeps_arg0, layer2_keeps_arg0, norm2_keeps_arg0, layer1_keeps_arg0, norm_keeps_arg0]
theorem after_ops_arg1 (W : Valuation τ sig (Elt F)) :
    StableHlo.after Cert.ReferenceIdeal.ValueP.ops W (Proc.devRef .tc main_arg1) = W (Proc.devRef .tc main_arg1) := by
  rw [ops_cut, StableHlo.after_append, StableHlo.after_append, StableHlo.after_append, StableHlo.after_append,
    softmax_keeps_arg1, layer2_keeps_arg1, norm2_keeps_arg1, layer1_keeps_arg1, norm_keeps_arg1]
theorem after_ops_arg2 (W : Valuation τ sig (Elt F)) :
    StableHlo.after Cert.ReferenceIdeal.ValueP.ops W (Proc.devRef .tc main_arg2) = W (Proc.devRef .tc main_arg2) := by
  rw [ops_cut, StableHlo.after_append, StableHlo.after_append, StableHlo.after_append, StableHlo.after_append,
    softmax_keeps_arg2, layer2_keeps_arg2, norm2_keeps_arg2, layer1_keeps_arg2, norm_keeps_arg2]
theorem after_ops_arg3 (W : Valuation τ sig (Elt F)) :
    StableHlo.after Cert.ReferenceIdeal.ValueP.ops W (Proc.devRef .tc main_arg3) = W (Proc.devRef .tc main_arg3) := by
  rw [ops_cut, StableHlo.after_append, StableHlo.after_append, StableHlo.after_append, StableHlo.after_append,
    softmax_keeps_arg3, layer2_keeps_arg3, norm2_keeps_arg3, layer1_keeps_arg3, norm_keeps_arg3]
theorem after_ops_arg4 (W : Valuation τ sig (Elt F)) :
    StableHlo.after Cert.ReferenceIdeal.ValueP.ops W (Proc.devRef .tc main_arg4) = W (Proc.devRef .tc main_arg4) := by
  rw [ops_cut, StableHlo.after_append, StableHlo.after_append, StableHlo.after_append, StableHlo.after_append,
    softmax_keeps_arg4, layer2_keeps_arg4, norm2_keeps_arg4, layer1_keeps_arg4, norm_keeps_arg4]
theorem after_ops_arg5 (W : Valuation τ sig (Elt F)) :
    StableHlo.after Cert.ReferenceIdeal.ValueP.ops W (Proc.devRef .tc main_arg5) = W (Proc.devRef .tc main_arg5) := by
  rw [ops_cut, StableHlo.after_append, StableHlo.after_append, StableHlo.after_append, StableHlo.after_append,
    softmax_keeps_arg5, layer2_keeps_arg5, norm2_keeps_arg5, layer1_keeps_arg5, norm_keeps_arg5]
theorem after_ops_arg6 (W : Valuation τ sig (Elt F)) :
    StableHlo.after Cert.ReferenceIdeal.ValueP.ops W (Proc.devRef .tc main_arg6) = W (Proc.devRef .tc main_arg6) := by
  rw [ops_cut, StableHlo.after_append, StableHlo.after_append, StableHlo.after_append, StableHlo.after_append,
    softmax_keeps_arg6, layer2_keeps_arg6, norm2_keeps_arg6, layer1_keeps_arg6, norm_keeps_arg6]

/-! ## The run -/

/-- On every device, from any memory with zero counters: every weakly fair execution of @main terminates with the result
    buffer at the network of the launch memory's arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85)
        = Cert.Graph.gcn (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v85).trans (after_ops_result _),
      (h c main_arg0).trans (after_ops_arg0 _), (h c main_arg1).trans (after_ops_arg1 _), (h c main_arg2).trans (after_ops_arg2 _),
      (h c main_arg3).trans (after_ops_arg3 _), (h c main_arg4).trans (after_ops_arg4 _), (h c main_arg5).trans (after_ops_arg5 _),
      (h c main_arg6).trans (after_ops_arg6 _)⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.ReferenceIdeal.RefValue

end
-- ==== Proof.lean ====
/-
  A two-layer graph convolution over an edge list, against its plain reference.
  Both programs compute, for node features x [100000, 512], an edge list (source, target) with weights w over 3,300,000
  edges, and the two layers' weights and biases:
      out = logsoftmax_rows( A · relu( A · (x W1) + b1 ) W2 + b2 ),
  where A is the normalised adjacency, applied edge by edge: with deg(v) the weights summed into v and
  d(v) = deg(v)^(-1/2) (zero where deg(v) is not positive), (A h)(v) is the sum over the edges e into v of
  h(source e) · d(source e) · w(e) · d(target e). The kernel does the four dense stages — x W1, the bias and relu, the
  second product, the bias and row-wise log-softmax — in four tiled calls over row blocks (20 blocks of 5000 rows, then
  5 blocks of 20000 rows each), casting the products' operands to bf16 on the way, and leaves the edge sums to the host;
  the reference does everything on the host and computes the coefficients once per layer.
  Over the extended reals the two agree without any algebra: a format change is the identity; a row block of a product
  is the product of the row block; a row lies inside one block, so a block's row maximum and row sum are the array's;
  a product into a zero accumulator and the host's product are the same sum; and the reference's extra maximum
  against minus infinity changes nothing. Everything between the dense stages is the same host operations in both
  programs, carried as named functions that are never opened (Proof/Graph.lean).
  The parts: Proof/Region0 … Region3 — after each tiled call its output array is ONE whole-array function (Proof/Layers.lean)
  of the arrays it reads; Proof/KernelRun — the kernel's run with its result buffer named; Proof/KernelValue — that
  buffer read back through @main's stretches and calls to the network of the arguments; Proof/RefValue — the reference's
  run read back, stretch by stretch, to the same network. The frames of the two kernels are the generated ones; the
  reference's frame is its run with the result dropped. No finiteness is used: the precondition is never opened.
-/
import proofs.«158233_j18399639896776_1_alg».proof.Defs
import proofs.«158233_j18399639896776_1_alg».proof.Proof.Gen.Kernel
import proofs.«158233_j18399639896776_1_alg».proof.Proof.Gen.Kernel.Frame
import proofs.«158233_j18399639896776_1_alg».proof.Proof.Gen.KernelIdeal
import proofs.«158233_j18399639896776_1_alg».proof.Proof.Gen.KernelIdeal.Frame
import proofs.«158233_j18399639896776_1_alg».proof.Proof.Gen.ReferenceIdeal
import proofs.«158233_j18399639896776_1_alg».proof.Proof.Gen.Pre_finite_inputs
import proofs.«158233_j18399639896776_1_alg».proof.Proof.KernelValue
import proofs.«158233_j18399639896776_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The ideal pass rewrote nothing. -/
theorem preserves : Cert.preserves_Kernel_KernelIdeal := trivial

/-- From memories that agree on the arguments both programs end with the result at the network of the arguments. -/
theorem algebraic : Cert.algebraic_KernelIdeal_ReferenceIdeal := by
  intro m ρ m' ρ' _ hagree
  refine ⟨fun c => Cert.Graph.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.result m ρ c), (h c).2⟩)
      (Cert.KernelIdeal.RunOut.run_out m ρ)
  · refine (θ_run Cert.ReferenceIdeal.defs _ _).mono (fun r h c => ⟨(h c).1.trans ?_, (h c).2⟩)
      (Cert.ReferenceIdeal.RefValue.run (F := Ideal) m' ρ')
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
